-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32000 : Shape := ⟨3, ![32, 256, 32000]⟩
abbrev S32x256 : Shape := ⟨2, ![32, 256]⟩
abbrev S32 : Shape := ⟨1, ![32]⟩
abbrev S_ : Shape := ⟨0, ![]⟩

class Facts : Prop where
  bcast_S_S32x256x32000 : S_.BroadcastsInDim S32x256x32000 (![] : Fin 0 → Fin S32x256x32000.rank)
  reducesTo_S32x256x32000_S_d0_1_2 : S32x256x32000.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg1 : IVec S32x256 32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S32x256 32 := broadcastInDim S32x256 ![] bcast_S_S32x256 main_c_8
  let main_v25 : IVec S32x256 1 := cmpi .sge main_arg1 main_v24
  let main_c_9 : IVec S_ 32 := constantI S_ 32 32000#32
  let main_v26 : IVec S32x256 32 := broadcastInDim S32x256 ![] bcast_S_S32x256 main_c_9
  let main_v27 : IVec S32x256 1 := cmpi .slt main_arg1 main_v26
  let main_v28 : IVec S32x256 1 := andi main_v25 main_v27
  let main_c_10 : IVec S_ 1 := constantI S_ 1 1#1
  let main_v29 : IVec S_ 1 := (fun x v => Host.reduce IntOp.andi x v reducesTo_S32x256_S_d0_1 h_S_) main_v28 main_c_10
  let main_v30 : IVec S_ 1 := andi main_v23 main_v29
  main_v30

def fn {F : FTy → Type} [FloatOps F] (main_arg0 : FVec F S32x256x32000 .f32) (main_arg1 : IVec S32x256 32) (main_arg2 : FVec F S32x256 .f32) (main_arg3 : FVec F S32x256 .f32) (main_arg4 : FVec F S32 .f32) (main_arg5 : FVec F S32 .f32) : IVec S_ 1 :=
  let main_v0 : FVec F S32x256x32000 .f32 := Host.absf main_arg0
  let main_cst : FVec F S_ .f32 := constant S_ .f32 0x7F800000#32
  let main_v1 : FVec F S32x256x32000 .f32 := broadcastInDim S32x256x32000 ![] bcast_S_S32x256x32000 main_cst
  let main_v2 : IVec S32x256x32000 1 := cmpf .olt main_v0 main_v1
  let main_c : IVec S_ 1 := constantI S_ 1 1#1
  let main_v3 : IVec S_ 1 := (fun x v => Host.reduce IntOp.andi x v reducesTo_S32x256x32000_S_d0_1_2 h_S_) main_v2 main_c
  let main_v4 : FVec F S32x256 .f32 := Host.absf main_arg2
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32x256 .f32 := Host.absf main_arg3
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg5 main_v13 main_v16
-- ==== Kernel.lean ====
abbrev S32x256x32000 : Shape := ⟨3, ![32, 256, 32000]⟩
abbrev S32x256 : Shape := ⟨2, ![32, 256]⟩
abbrev S32 : Shape := ⟨1, ![32]⟩
abbrev S32x256x1 : Shape := ⟨3, ![32, 256, 1]⟩
abbrev S1x128x32000 : Shape := ⟨3, ![1, 128, 32000]⟩
abbrev S1x128x1 : Shape := ⟨3, ![1, 128, 1]⟩
abbrev S128x1 : Shape := ⟨2, ![128, 1]⟩
abbrev S1x128x3200 : Shape := ⟨3, ![1, 128, 3200]⟩
abbrev S128x3200 : Shape := ⟨2, ![128, 3200]⟩
abbrev S128 : Shape := ⟨1, ![128]⟩
abbrev S_ : Shape := ⟨0, ![]⟩

abbrev nBuf : Space → Nat
  | .hbm => 57
  | .vmem => 6
  | .smem => 0
  | _ => 0

abbrev bufTy : (tb : Table) → Fin (tcTables nBuf tb) → BufTy
  | .hbm, ⟨0, _⟩ => ⟨S32x256x32000, .f32⟩
  | .hbm, ⟨1, _⟩ => ⟨S32x256, .i32⟩
  | .hbm, ⟨2, _⟩ => ⟨S32x256, .f32⟩
  | .hbm, ⟨3, _⟩ => ⟨S32x256, .f32⟩
  | .hbm, ⟨4, _⟩ => ⟨S32, .f32⟩
  | .hbm, ⟨5, _⟩ => ⟨S32, .f32⟩
  | .hbm, ⟨6, _⟩ => ⟨S32x256x1, .i32⟩
  | .hbm, ⟨7, _⟩ => ⟨S32x256x1, .f32⟩
  | .hbm, ⟨8, _⟩ => ⟨S32x256, .f32⟩
  | .hbm, ⟨9, _⟩ => ⟨S_, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .i1⟩
  | .hbm, ⟨35, _⟩ => ⟨S32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1x128x32000, .f32⟩
  | .local _ .vmem, ⟨1, _⟩ => ⟨S1x128x32000, .f32⟩
  | .local _ .vmem, ⟨2, _⟩ => ⟨S1x128x1, .i32⟩
  | .local _ .vmem, ⟨3, _⟩ => ⟨S1x128x1, .i32⟩
  | .local _ .vmem, ⟨4, _⟩ => ⟨S1x128x1, .f32⟩
  | .local _ .vmem, ⟨5, _⟩ => ⟨S1x128x1, .f32⟩
  | _, _ => ⟨S32x256x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_cst_7 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_8 : Ref sig .tc := ⟨.hbm, 45, rfl⟩
abbrev main_v25 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_cst_10 : Ref sig .tc := ⟨.hbm, 50, rfl⟩
abbrev main_v28 : Ref sig .tc := ⟨.hbm, 51, rfl⟩
abbrev main_cst_11 : Ref sig .tc := ⟨.hbm, 52, rfl⟩
abbrev main_v29 : Ref sig .tc := ⟨.hbm, 53, rfl⟩
abbrev main_v30 : Ref sig .tc := ⟨.hbm, 54, rfl⟩
abbrev main_cst_12 : Ref sig .tc := ⟨.hbm, 55, rfl⟩
abbrev main_v31 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def k0_mult1 : BitVec 32 :=
  let c0_i32 : BitVec 32 := 0#32
  c0_i32
def k0_mult2 : BitVec 32 :=
  let c3200_i32 : BitVec 32 := 3200#32
  c3200_i32
def k0_mult3 : BitVec 32 :=
  let c6400_i32 : BitVec 32 := 6400#32
  c6400_i32
def k0_mult4 : BitVec 32 :=
  let c9600_i32 : BitVec 32 := 9600#32
  c9600_i32
def k0_mult5 : BitVec 32 :=
  let c12800_i32 : BitVec 32 := 12800#32
  c12800_i32
def k0_mult6 : BitVec 32 :=
  let c16000_i32 : BitVec 32 := 16000#32
  c16000_i32
def k0_mult7 : BitVec 32 :=
  let c19200_i32 : BitVec 32 := 19200#32
  c19200_i32
def k0_mult8 : BitVec 32 :=
  let c22400_i32 : BitVec 32 := 22400#32
  c22400_i32
def k0_mult9 : BitVec 32 :=
  let c25600_i32 : BitVec 32 := 25600#32
  c25600_i32
def k0_mult10 : BitVec 32 :=
  let c28800_i32 : BitVec 32 := 28800#32
  c28800_i32
def k0_mult11 : BitVec 32 :=
  let c0_i32_34 : BitVec 32 := 0#32
  c0_i32_34
def k0_mult12 : BitVec 32 :=
  let c3200_i32_40 : BitVec 32 := 3200#32
  c3200_i32_40
def k0_mult13 : BitVec 32 :=
  let c6400_i32_46 : BitVec 32 := 6400#32
  c6400_i32_46
def k0_mult14 : BitVec 32 :=
  let c9600_i32_52 : BitVec 32 := 9600#32
  c9600_i32_52
def k0_mult15 : BitVec 32 :=
  let c12800_i32_58 : BitVec 32 := 12800#32
  c12800_i32_58
def k0_mult16 : BitVec 32 :=
  let c16000_i32_64 : BitVec 32 := 16000#32
  c16000_i32_64
def k0_mult17 : BitVec 32 :=
  let c19200_i32_70 : BitVec 32 := 19200#32
  c19200_i32_70
def k0_mult18 : BitVec 32 :=
  let c22400_i32_76 : BitVec 32 := 22400#32
  c22400_i32_76
def k0_mult19 : BitVec 32 :=
  let c25600_i32_82 : BitVec 32 := 25600#32
  c25600_i32_82
def k0_mult20 : BitVec 32 :=
  let c28800_i32_88 : BitVec 32 := 28800#32
  c28800_i32_88
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S32x256_S32x256x1 : S32x256.ShapeCasts S32x256x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x128x32000_S1x128x3200_0_0_0 : ∀ a, (![0, 0, 0] : Fin 3 → Nat) a + S1x128x3200.size a ≤ S1x128x32000.size a
  h_S1x128x3200 : 0 < S1x128x3200.numel
  shapeCasts_S1x128x3200_S128x3200 : S1x128x3200.ShapeCasts S128x3200
  reduces_S128x3200_S128 : S128x3200.Reduces [1] S128
  shapeCasts_S128_S128x1 : S128.ShapeCasts S128x1
  inb_S1x128x32000_S1x128x3200_0_0_3200 : ∀ a, (![0, 0, 3200] : Fin 3 → Nat) a + S1x128x3200.size a ≤ S1x128x32000.size a
  inb_S1x128x32000_S1x128x3200_0_0_6400 : ∀ a, (![0, 0, 6400] : Fin 3 → Nat) a + S1x128x3200.size a ≤ S1x128x32000.size a
  inb_S1x128x32000_S1x128x3200_0_0_9600 : ∀ a, (![0, 0, 9600] : Fin 3 → Nat) a + S1x128x3200.size a ≤ S1x128x32000.size a
  inb_S1x128x32000_S1x128x3200_0_0_12800 : ∀ a, (![0, 0, 12800] : Fin 3 → Nat) a + S1x128x3200.size a ≤ S1x128x32000.size a
  inb_S1x128x32000_S1x128x3200_0_0_16000 : ∀ a, (![0, 0, 16000] : Fin 3 → Nat) a + S1x128x3200.size a ≤ S1x128x32000.size a
  inb_S1x128x32000_S1x128x3200_0_0_19200 : ∀ a, (![0, 0, 19200] : Fin 3 → Nat) a + S1x128x3200.size a ≤ S1x128x32000.size a
  inb_S1x128x32000_S1x128x3200_0_0_22400 : ∀ a, (![0, 0, 22400] : Fin 3 → Nat) a + S1x128x3200.size a ≤ S1x128x32000.size a
  inb_S1x128x32000_S1x128x3200_0_0_25600 : ∀ a, (![0, 0, 25600] : Fin 3 → Nat) a + S1x128x3200.size a ≤ S1x128x32000.size a
  inb_S1x128x32000_S1x128x3200_0_0_28800 : ∀ a, (![0, 0, 28800] : Fin 3 → Nat) a + S1x128x3200.size a ≤ S1x128x32000.size a
  iota_S128x3200_d1_w32 : S128x3200.Iotas .tc 32 [1]
  broadcasts_S128x1_S128x3200 : S128x1.Broadcasts S128x3200
  natLt_1_32 : 1 < 32
  shapeCasts_S128x1_S1x128x1 : S128x1.ShapeCasts S1x128x1
  shapeCasts_S32x256x1_S32x256 : S32x256x1.ShapeCasts S32x256
  reducesTo_S32x256_S32_d1 : S32x256.ReducesTo [1] S32
  h_S_ : 0 < S_.numel
  bcast_S_S32 : S_.BroadcastsInDim S32 (![] : Fin 0 → Fin S32.rank)
  reducesTo_S32_S_d0 : S32.ReducesTo [0] S_
  hrank0 : 0 < grid0.rank
  k0_mult1_dvd : 128 ∣ k0_mult1.toNat
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  k0_mult17_dvd : 128 ∣ k0_mult17.toNat
  k0_mult18_dvd : 128 ∣ k0_mult18.toNat
  k0_mult19_dvd : 128 ∣ k0_mult19.toNat
  k0_mult20_dvd : 128 ∣ k0_mult20.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32000.size a ≤ S32x256x32000.size a
  hwx0_0 : ∀ i : grid0.Coords, EltTy.bits .f32 = 32 ∨ (Rect.block (s := S32x256x32000) S1x128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S32x256x1.size a
  hwx0_1 : ∀ i : grid0.Coords, EltTy.bits .i32 = 32 ∨ (Rect.block (s := S32x256x1) S1x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S32x256x1.size a
  hwx0_2 : ∀ i : grid0.Coords, EltTy.bits .f32 = 32 ∨ (Rect.block (s := S32x256x1) S1x128x1.size (cc0_transform_2 i) (hinb0_2 i)).WholeWords (EltTy.packing .f32)

variable [Facts₀]

abbrev win0_0 : Pipeline.Window sig grid0 :=
  Pipeline.Window.ofSpec (Memref.whole main_arg0) S1x128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x32000 : Shape := ⟨3, ![32, 256, 32000]⟩
abbrev S32x256 : Shape := ⟨2, ![32, 256]⟩
abbrev S32 : Shape := ⟨1, ![32]⟩
abbrev S_ : Shape := ⟨0, ![]⟩
abbrev S32x256x1 : Shape := ⟨3, ![32, 256, 1]⟩
abbrev S32x256x1x1 : Shape := ⟨4, ![32, 256, 1, 1]⟩
abbrev S1 : Shape := ⟨1, ![1]⟩
abbrev S1x1x1x1 : Shape := ⟨4, ![1, 1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S32x256x32000, .f32⟩
  | .hbm, ⟨1, _⟩ => ⟨S32x256, .i32⟩
  | .hbm, ⟨2, _⟩ => ⟨S32x256, .f32⟩
  | .hbm, ⟨3, _⟩ => ⟨S32x256, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32x256, .f32⟩
  | .hbm, ⟨8, _⟩ => ⟨S_, .f32⟩
  | .hbm, ⟨9, _⟩ => ⟨S32x256, .f32⟩
  | .hbm, ⟨10, _⟩ => ⟨S32x256, .f32⟩
  | .hbm, ⟨11, _⟩ => ⟨S32x256x1, .f32⟩
  | .hbm, ⟨12, _⟩ => ⟨S32x256x32000, .f32⟩
  | .hbm, ⟨13, _⟩ => ⟨S32x256x32000, .f32⟩
  | .hbm, ⟨14, _⟩ => ⟨S32x256x32000, .f32⟩
  | .hbm, ⟨15, _⟩ => ⟨S_, .f32⟩
  | .hbm, ⟨16, _⟩ => ⟨S32x256, .f32⟩
  | .hbm, ⟨17, _⟩ => ⟨S32x256x1, .f32⟩
  | .hbm, ⟨18, _⟩ => ⟨S32x256x1, .f32⟩
  | .hbm, ⟨19, _⟩ => ⟨S32x256x32000, .f32⟩
  | .hbm, ⟨20, _⟩ => ⟨S32x256x32000, .f32⟩
  | .hbm, ⟨21, _⟩ => ⟨S32x256x1, .i32⟩
  | .hbm, ⟨22, _⟩ => ⟨S_, .i32⟩
  | .hbm, ⟨23, _⟩ => ⟨S32x256x1, .i32⟩
  | .hbm, ⟨24, _⟩ => ⟨S32x256x1, .i1⟩
  | .hbm, ⟨25, _⟩ => ⟨S_, .i32⟩
  | .hbm, ⟨26, _⟩ => ⟨S32x256x1, .i32⟩
  | .hbm, ⟨27, _⟩ => ⟨S32x256x1, .i32⟩
  | .hbm, ⟨28, _⟩ => ⟨S32x256x1, .i32⟩
  | .hbm, ⟨29, _⟩ => ⟨S32x256x1x1, .i32⟩
  | .hbm, ⟨30, _⟩ => ⟨S1, .i32⟩
  | .hbm, ⟨31, _⟩ => ⟨S_, .i32⟩
  | .hbm, ⟨32, _⟩ => ⟨S32x256x1x1, .i32⟩
  | .hbm, ⟨33, _⟩ => ⟨S32x256x1x1, .i1⟩
  | .hbm, ⟨34, _⟩ => ⟨S1x1x1x1, .i32⟩
  | .hbm, ⟨35, _⟩ => ⟨S32x256x1x1, .i32⟩
  | .hbm, ⟨36, _⟩ => ⟨S32x256x1x1, .i1⟩
  | .hbm, ⟨37, _⟩ => ⟨S32x256x1x1, .i1⟩
  | .hbm, ⟨38, _⟩ => ⟨S_, .i1⟩
  | .hbm, ⟨39, _⟩ => ⟨S32x256x1, .i1⟩
  | .hbm, ⟨40, _⟩ => ⟨S32x256x1, .f32⟩
  | .hbm, ⟨41, _⟩ => ⟨S_, .f32⟩
  | .hbm, ⟨42, _⟩ => ⟨S32x256x1, .f32⟩
  | .hbm, ⟨43, _⟩ => ⟨S32x256x1, .f32⟩
  | .hbm, ⟨44, _⟩ => ⟨S32x256, .f32⟩
  | .hbm, ⟨45, _⟩ => ⟨S_, .i32⟩
  | .hbm, ⟨46, _⟩ => ⟨S32x256, .i32⟩
  | .hbm, ⟨47, _⟩ => ⟨S32x256, .i1⟩
  | .hbm, ⟨48, _⟩ => ⟨S32x256, .f32⟩
  | .hbm, ⟨49, _⟩ => ⟨S32x256, .f32⟩
  | .hbm, ⟨50, _⟩ => ⟨S_, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S32, .i1⟩
  | .hbm, ⟨76, _⟩ => ⟨S32, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S32x256x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev main_v1 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v2 : Ref sig .tc := ⟨.hbm, 43, rfl⟩
abbrev main_v3 : Ref sig .tc := ⟨.hbm, 44, rfl⟩
abbrev main_c : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_cst_0 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_1 : Ref sig .tc := ⟨.hbm, 56, rfl⟩
abbrev main_cst_2 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_3 : Ref sig .tc := ⟨.hbm, 68, rfl⟩
abbrev main_v17 : Ref sig .tc := ⟨.hbm, 69, rfl⟩
abbrev main_cst_4 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_5 : Ref sig .tc := ⟨.hbm, 77, rfl⟩
abbrev main_v24 : Ref sig .tc := ⟨.hbm, 78, rfl⟩
abbrev main_cst_6 : Ref sig .tc := ⟨.hbm, 79, rfl⟩
abbrev main_v25 : Ref sig .tc := ⟨.hbm, 80, rfl⟩
abbrev main_cst_7 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_8 : Ref sig .tc := ⟨.hbm, 86, rfl⟩
abbrev main_v30 : Ref sig .tc := ⟨.hbm, 87, rfl⟩
abbrev main_v31 : Ref sig .tc := ⟨.hbm, 88, rfl⟩
abbrev main_cst_9 : Ref sig .tc := ⟨.hbm, 89, rfl⟩
abbrev main_v32 : Ref sig .tc := ⟨.hbm, 90, rfl⟩
abbrev main_cst_10 : Ref sig .tc := ⟨.hbm, 91, rfl⟩
abbrev main_v33 : Ref sig .tc := ⟨.hbm, 92, rfl⟩
abbrev main_cst_11 : Ref sig .tc := ⟨.hbm, 93, rfl⟩
abbrev main_v34 : Ref sig .tc := ⟨.hbm, 94, rfl⟩
abbrev main_v35 : Ref sig .tc := ⟨.hbm, 95, rfl⟩
abbrev main_cst_12 : Ref sig .tc := ⟨.hbm, 96, rfl⟩
abbrev main_v36 : Ref sig .tc := ⟨.hbm, 97, rfl⟩

abbrev nD : Nat := 1
abbrev τ : Topo := Topo.v7x

variable {F : FTy → Type} [FloatOps F]

class Facts₀ : Prop where
  reducesTo_S32x256x32000_S32x256_d2 : S32x256x32000.ReducesTo [2] S32x256
  h_S_ : 0 < S_.numel
  bcast_S_S32x256 : S_.BroadcastsInDim S32x256 (![] : Fin 0 → Fin S32x256.rank)
  bcast_S32x256_S32x256x1_0_1 : S32x256.BroadcastsInDim S32x256x1 (![0, 1] : Fin 2 → Fin S32x256x1.rank)
  bcast_S32x256x1_S32x256x32000_0_1_2 : S32x256x1.BroadcastsInDim S32x256x32000 (![0, 1, 2] : Fin 3 → Fin S32x256x32000.rank)
  bcast_S_S32x256x1 : S_.BroadcastsInDim S32x256x1 (![] : Fin 0 → Fin S32x256x1.rank)
  shapeCasts_S32x256x1_S32x256x1x1 : S32x256x1.ShapeCasts S32x256x1x1
  bcast_S_S32x256x1x1 : S_.BroadcastsInDim S32x256x1x1 (![] : Fin 0 → Fin S32x256x1x1.rank)
  bcast_S1_S1x1x1x1_3 : S1.BroadcastsInDim S1x1x1x1 (![3] : Fin 1 → Fin S1x1x1x1.rank)
  bcast_S1x1x1x1_S32x256x1x1_0_1_2_3 : S1x1x1x1.BroadcastsInDim S32x256x1x1 (![0, 1, 2, 3] : Fin 4 → Fin S32x256x1x1.rank)
  reducesTo_S32x256x1x1_S32x256x1_d3 : S32x256x1x1.ReducesTo [3] S32x256x1
  shapeCasts_S32x256x1_S32x256 : S32x256x1.ShapeCasts S32x256
  reducesTo_S32x256_S32_d1 : S32x256.ReducesTo [1] S32
  bcast_S_S32 : S_.BroadcastsInDim S32 (![] : Fin 0 → Fin S32.rank)
  reducesTo_S32_S_d0 : S32.ReducesTo [0] S_
  gather_S32x256x32000_S32x256x1x1_S32x256x1_n_2_01_01_2_3_111_wf : GatherDims.WF S32x256x32000 S32x256x1x1 S32x256x1 [] [2] [0, 1] [2] [0, 1] 3 ![1, 1, 1]

variable [Facts₀]

def gather_S32x256x32000_S32x256x1x1_S32x256x1_n_2_01_01_2_3_111 : GatherDims S32x256x32000 S32x256x1x1 S32x256x1 where
  offsetDims := []
  collapsedSliceDims := [2]
  operandBatchingDims := [0, 1]
  startIndicesBatchingDims := [0, 1]
  startIndexMap := [2]
  indexVectorDim := 3
  sliceSizes := ![1, 1, 1]
  wf := gather_S32x256x32000_S32x256x1x1_S32x256x1_n_2_01_01_2_3_111_wf

class Facts : Prop extends Facts₀ where

variable [Facts]
-- ==== Proof.TokenLogProb.lean ====
/-
  The number both programs compute for one position of one sequence: the log-probability that the softmax of a
  row of 32000 logits gives the position's target token, made zero where the target is the pad token 0.

  `tokLogProb` is the textbook form: with `M` the row's supremum, `(x id - M) - log (∑ v, exp (x v - M))`.
  `sweepTokLogProb` is the same number as a two-pass sweep over ten stretches of 3200 lanes computes it: the
  supremum as a running maximum of the stretches' maxima started from `-∞`; then, against that final maximum, the
  sum of exponentials as a running sum of the stretches' sums started from `0`, and the target's logit as a running
  sum, over the stretches, of the lanes selected by "lane number = target - stretch start" (a one-hot pick: every
  term but at most one is zero); last `pick - (M + log S)`. The two agree on rows of real numbers and targets
  inside the vocabulary (RowMath.lean); on the extended reals in general they need not (`(a - M) - l` and
  `a - (M + l)` part company at the infinities).
-/
import Idealize.ShloMosaic.PureOps.Ideal

noncomputable section

open scoped BigOperators

namespace Cert.TokenLogProb

open Idealize.ShloMosaic

/-- A row of logits over the vocabulary. -/
abbrev Row := Fin 32000 → EReal

/-- Lane `j` of the `k`-th stretch of 3200 lanes is vocabulary entry `3200 k + j`. -/
def lane (k : Fin 10) (j : Fin 3200) : Fin 32000 := ⟨3200 * k.val + j.val, by omega⟩

/-- The maximum over one stretch, folded from `-∞`. -/
def stretchMax (x : Row) (k : Fin 10) : EReal :=
  (Finset.univ : Finset (Fin 3200)).fold max ⊥ (fun j => x (lane k j))

/-- The sum over one stretch of `exp (x - m)`. -/
def stretchSumExp (x : Row) (m : EReal) (k : Fin 10) : EReal :=
  ∑ j : Fin 3200, Ideal.exp (x (lane k j) - m)

/-- The one-hot pick over one stretch: the lanes whose number, as a 32-bit word, is the target less the stretch's
    start (a wrapping subtraction) keep their logit, the others give zero. -/
def stretchPick (x : Row) (id : BitVec 32) (k : Fin 10) : EReal :=
  ∑ j : Fin 3200, if BitVec.ofNat 32 j.val = id - BitVec.ofNat 32 (3200 * k.val) then x (lane k j) else 0

/-- The running maximum over the ten stretches, started from `-∞`. -/
def sweepMax (x : Row) : EReal :=
  max (max (max (max (max (max (max (max (max (max ⊥ (stretchMax x 0)) (stretchMax x 1)) (stretchMax x 2))
    (stretchMax x 3)) (stretchMax x 4)) (stretchMax x 5)) (stretchMax x 6)) (stretchMax x 7)) (stretchMax x 8))
    (stretchMax x 9)

/-- The running sum of exponentials over the ten stretches, started from `0`. -/
def sweepSumExp (x : Row) (m : EReal) : EReal :=
  0 + stretchSumExp x m 0 + stretchSumExp x m 1 + stretchSumExp x m 2 + stretchSumExp x m 3 + stretchSumExp x m 4
    + stretchSumExp x m 5 + stretchSumExp x m 6 + stretchSumExp x m 7 + stretchSumExp x m 8 + stretchSumExp x m 9

/-- The running one-hot pick over the ten stretches, started from `0`. -/
def sweepPick (x : Row) (id : BitVec 32) : EReal :=
  0 + stretchPick x id 0 + stretchPick x id 1 + stretchPick x id 2 + stretchPick x id 3 + stretchPick x id 4
    + stretchPick x id 5 + stretchPick x id 6 + stretchPick x id 7 + stretchPick x id 8 + stretchPick x id 9

/-- `0` at the pad token, `1` elsewhere. -/
def padMask (id : BitVec 32) : EReal := if id = 0#32 then 0 else 1

/-- The two-pass sweep's result for one row and target. -/
def sweepTokLogProb (x : Row) (id : BitVec 32) : EReal :=
  (sweepPick x id - (sweepMax x + Ideal.log (sweepSumExp x (sweepMax x)))) * padMask id

/-- The textbook form, for a target inside the vocabulary (and `0`, a value nobody uses, outside). -/
def tokLogProb (x : Row) (id : BitVec 32) : EReal :=
  if h : id.toNat < 32000 then
    ((x ⟨id.toNat, h⟩ - Finset.univ.sup x) - Ideal.log (∑ v : Fin 32000, Ideal.exp (x v - Finset.univ.sup x))) * padMask id
  else 0

end Cert.TokenLogProb

end
-- ==== Proof.KernelRow.lean ====
/-
  One row of the kernel body's result. The body holds a [1, 128, 32000] block of logits and a [1, 128, 1] block of
  targets and stores a [1, 128, 1] block; row `r` of what it stores depends on row `r` of the logits and on target
  `r` only, and is the two-pass sweep `sweepTokLogProb` of them: ten lane-aligned loads of 3200 lanes, a maximum
  per load folded into a running maximum, then per load a sum of exponentials against the final maximum and a
  one-hot pick of the target's lane, each folded into a running sum.

  The proof reads each operation of the body at one row: a lane reduction of a [128, 3200] block at row `r` is a fold
  or a sum over the 3200 lanes of that row, a column broadcast reads the column's entry of the row, a leading unit axis
  is dropped or added without moving an entry, and a load of the `k`-th stretch reads the logits row at lanes
  `3200 k + j`. Each part of the body is then a running maximum, sum of exponentials or one-hot pick over some of the
  ten stretches, and the parts chain to the three sweeps of `TokenLogProb`.
-/
import proofs.«400205_j25640954757603_3_alg».proof.Proof.Gen.KernelIdeal.Frame
import proofs.«400205_j25640954757603_3_alg».proof.Proof.TokenLogProb
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.RowValue

open Cert.KernelIdeal Cert.KernelIdeal.Gen Idealize.ShloMosaic Idealize.ShloMosaic.ValueIdx Cert.TokenLogProb

/-! ## One operation at one row -/

/-- The word of negative infinity. -/
theorem ofBits_negInf : Ideal.ofBits .f32 0xFF800000#32 = (⊥ : EReal) := by simp [Ideal.ofBits, Ideal.ieee]

/-- The lifted index of a lane reduction of a [128, 3200] block. -/
theorem lift_row (h : S128x3200.Reduces [1] S128) (r : Fin 128) (j : Fin 3200) :
    h.lift (ix1 r) j = ix2 r j := by
  funext a; match a with | ⟨0, _⟩ => exact Fin.ext rfl | ⟨1, _⟩ => exact Fin.ext rfl

/-- A [128] vector cast to [128, 1] reads row r at (r, 0). -/
theorem cast_col (v : (S128).Idx → EReal) (hc : S128.ShapeCasts S128x1) (r : Fin 128) :
    shapeCast S128x1 v hc (ix2 r (0 : Fin 1)) = v (ix1 r) :=
  shapeCast_apply v hc _ _ (by
    rw [Shape.rowMajor_val_two, Shape.rowMajor_val_one]
    show r.val = r.val * 1 + 0
    omega)

/-- The stretch maximum. -/
theorem rowMax_apply (u : FVec Ideal S128x3200 .f32) (h : S128x3200.Reduces [1] S128) (hφ : FKind.Formats .f32)
    (hacc : (0xFF800000#32 : BitVec 32) = 0xFF800000#32) (hc : S128.ShapeCasts S128x1) (r : Fin 128) :
    shapeCast S128x1 (multiReduction (F := Ideal) .maximumf [1] S128 u 0xFF800000#32 h hφ hacc) hc (ix2 r (0 : Fin 1))
      = (Finset.univ : Finset (Fin 3200)).fold max ⊥ (fun j => u (ix2 r j)) := by
  rw [cast_col]
  refine (Ideal.multiReduction_maximumf_single u 0xFF800000#32 h hφ hacc (ix1 r)).trans ?_
  rw [Ideal.ofBits_def, ofBits_negInf]
  exact congrArg (fun f => (Finset.univ : Finset (Fin 3200)).fold max ⊥ f) (funext fun j => congrArg u (lift_row h r j))

/-- The stretch sum. -/
theorem rowSum_apply (u : FVec Ideal S128x3200 .f32) (h : S128x3200.Reduces [1] S128) (hφ : FKind.Formats .f32)
    (hacc : (0x00000000#32 : BitVec 32) = 0x00000000#32) (hc : S128.ShapeCasts S128x1) (r : Fin 128) :
    shapeCast S128x1 (multiReduction (F := Ideal) .add [1] S128 u 0x00000000#32 h hφ hacc) hc (ix2 r (0 : Fin 1))
      = ∑ j : Fin 3200, u (ix2 r j) := by
  rw [cast_col]
  refine (Ideal.multiReduction_add_single u 0x00000000#32 h hφ hacc (ix1 r)).trans ?_
  exact Finset.sum_congr rfl fun j _ => congrArg u (lift_row h r j)

/-- A [128, 1] column broadcast along the lanes. -/
theorem bcast_col {α : Type} (v : S128x1.Idx → α) (hb : S128x1.Broadcasts S128x3200) (r : Fin 128) (j : Fin 3200) :
    broadcastTo S128x3200 v hb (ix2 r j) = v (ix2 r (0 : Fin 1)) := by
  refine broadcastTo_apply v hb (ix2 r j) (ix2 r (0 : Fin 1)) fun ax => ?_
  match ax with
  | ⟨0, _⟩ => rfl
  | ⟨1, _⟩ => rfl

/-- A [1, 128, n] block viewed [128, n]. -/
theorem cast_drop {α : Type} {n : Nat} (x : (⟨3, ![1, 128, n]⟩ : Shape).Idx → α)
    (h : (⟨3, ![1, 128, n]⟩ : Shape).ShapeCasts ⟨2, ![128, n]⟩) (r : Fin 128) (j : Fin n) :
    shapeCast ⟨2, ![128, n]⟩ x h (ix2 r j) = x (ix3 (0 : Fin 1) r j) :=
  shapeCast_1ab_ab_apply x h r j

/-- The load of a stretch of lanes. -/
theorem ld_at (x0 : Vec Ideal S1x128x32000 .f32) (o : Nat)
    (inb : ∀ a, (![0, 0, o] : Fin 3 → Nat) a + S1x128x3200.size a ≤ S1x128x32000.size a) (r : Fin 128) (j : Fin 3200)
    (hj : o + j.val < 32000) :
    View.ld x0 (Rect.unit (s := S1x128x32000) ![0, 0, o] S1x128x3200.size inb) (ix3 (0 : Fin 1) r j)
      = x0 (ix3 (0 : Fin 1) r ⟨o + j.val, hj⟩) := by
  show x0 _ = x0 _
  congr 1
  funext a
  match a with
  | ⟨0, _⟩ => exact Fin.ext (by simp)
  | ⟨1, _⟩ => exact Fin.ext (by simp)
  | ⟨2, _⟩ => exact Fin.ext (by simp)

/-! ## Rows -/

/-- Row r of a [1, 128, 3200] block, as a function of the lane. -/
def row3 {α : Type} (v : S1x128x3200.Idx → α) (r : Fin 128) : Fin 3200 → α := fun j => v (ix3 (0 : Fin 1) r j)
/-- Row r of a [128, 3200] block. -/
def row2 {α : Type} (u : S128x3200.Idx → α) (r : Fin 128) : Fin 3200 → α := fun j => u (ix2 r j)
/-- The maximum of a row, folded from -∞. -/
def fmax (f : Fin 3200 → EReal) : EReal := (Finset.univ : Finset (Fin 3200)).fold max ⊥ f
/-- The sum of exponentials of a row against m. -/
def fsum (f : Fin 3200 → EReal) (m : EReal) : EReal := ∑ j : Fin 3200, Ideal.exp (f j - m)
/-- The one-hot pick of a row: the lanes whose word g is t keep their value. -/
def fpick (f : Fin 3200 → EReal) (g : Fin 3200 → BitVec 32) (t : BitVec 32) : EReal := ∑ j : Fin 3200, if g j = t then f j else 0

theorem row2_cast {α : Type} (v : S1x128x3200.Idx → α) (h : S1x128x3200.ShapeCasts S128x3200) (r : Fin 128) :
    row2 (shapeCast S128x3200 v h) r = row3 v r := funext fun j => cast_drop v h r j

theorem rowMax_row (u : FVec Ideal S128x3200 .f32) (h : S128x3200.Reduces [1] S128) (hφ : FKind.Formats .f32)
    (hacc : (0xFF800000#32 : BitVec 32) = 0xFF800000#32) (hc : S128.ShapeCasts S128x1) (r : Fin 128) :
    shapeCast S128x1 (multiReduction (F := Ideal) .maximumf [1] S128 u 0xFF800000#32 h hφ hacc) hc (ix2 r (0 : Fin 1))
      = fmax (row2 u r) := rowMax_apply u h hφ hacc hc r

theorem rowSumExp_row (U : FVec Ideal S128x3200 .f32) (m : FVec Ideal S128x1 .f32) (hb : S128x1.Broadcasts S128x3200)
    (h : S128x3200.Reduces [1] S128) (hφ : FKind.Formats .f32)
    (hacc : (0x00000000#32 : BitVec 32) = 0x00000000#32) (hc : S128.ShapeCasts S128x1) (r : Fin 128) :
    shapeCast S128x1 (multiReduction (F := Ideal) .add [1] S128 (exp (subf U (broadcastTo S128x3200 m hb))) 0x00000000#32 h hφ hacc) hc (ix2 r (0 : Fin 1))
      = fsum (row2 U r) (m (ix2 r (0 : Fin 1))) := by
  rw [rowSum_apply]
  unfold fsum row2
  refine Finset.sum_congr rfl fun j _ => ?_
  show Ideal.exp (U (ix2 r j) - broadcastTo S128x3200 m hb (ix2 r j)) = _
  rw [bcast_col]

theorem select_eq_ite (c : BitVec 1) (a : EReal) : Scalar.select c a (Ideal.ofBits .f32 0x00000000#32) = if c = 1#1 then a else 0 := by
  rw [Ideal.ofBits_zero_f32]; rfl

theorem rowPick_row (v73 : IVec S128x3200 32) (T : IVec S128x1 32) (U : FVec Ideal S128x3200 .f32) (hb : S128x1.Broadcasts S128x3200)
    (h : S128x3200.Reduces [1] S128) (hφ : FKind.Formats .f32)
    (hacc : (0x00000000#32 : BitVec 32) = 0x00000000#32) (hc : S128.ShapeCasts S128x1) (r : Fin 128) :
    shapeCast S128x1 (multiReduction (F := Ideal) .add [1] S128
        (select (cmpi .eq v73 (broadcastTo S128x3200 T hb)) U (broadcast S128x3200 (Scalar.ofBits (F := Ideal) .f32 0x00000000#32)))
        0x00000000#32 h hφ hacc) hc (ix2 r (0 : Fin 1))
      = fpick (row2 U r) (row2 v73 r) (T (ix2 r (0 : Fin 1))) := by
  rw [rowSum_apply]
  unfold fpick row2
  refine Finset.sum_congr rfl fun j _ => ?_
  show Scalar.select (IntOp.cmpi .eq (v73 (ix2 r j)) (broadcastTo S128x3200 T hb (ix2 r j))) (U (ix2 r j)) (Ideal.ofBits .f32 0x00000000#32) = _
  rw [bcast_col, select_eq_ite]
  by_cases hq : v73 (ix2 r j) = T (ix2 r (0 : Fin 1))
  · rw [if_pos hq, if_pos (StableHlo.Predicate.cmpi_eq_iff.mpr hq)]
  · rw [if_neg hq, if_neg (fun hc' => hq (StableHlo.Predicate.cmpi_eq_iff.mp hc'))]

/-- The pad mask word. -/
theorem padMask_word (id : BitVec 32) :
    FloatOps.sitofp (F := Ideal) .f32 ((IntOp.cmpi .ne id 0#32).setWidth 32) = padMask id := by
  show (((BitVec.setWidth 32 (IntOp.cmpi .ne id 0#32)).toInt : ℝ) : EReal) = padMask id
  unfold padMask IntOp.cmpi
  by_cases h : id = 0#32
  · rw [if_pos h]; subst h; simp
  · rw [if_neg h]
    have h' : (id != 0#32) = true := by simpa using h
    simp [h']

/-! ## The payloads at a row -/

theorem log_apply (a : FVec Ideal S128x1 .f32) (i : S128x1.Idx) : log a i = Ideal.log (a i) := rfl
theorem subi_bc_apply (v1 : IVec S128x1 32) (c : BitVec 32) (i : S128x1.Idx) : subi v1 (broadcast S128x1 c) i = v1 i - c := rfl
theorem bc_negInf (i : S128x1.Idx) : broadcast S128x1 (Scalar.ofBits (F := Ideal) .f32 0xFF800000#32) i = (⊥ : EReal) := ofBits_negInf
theorem bc_zero (i : S128x1.Idx) : broadcast S128x1 (Scalar.ofBits (F := Ideal) .f32 0x00000000#32) i = (0 : EReal) := Ideal.ofBits_zero_f32

theorem padMask_apply (v1 : IVec S128x1 32) (h : 1 < 32) (i : S128x1.Idx) :
    (sitofp .f32 (extui 32 (cmpi .ne v1 (broadcast S128x1 0#32)) h) : FVec Ideal S128x1 .f32) i = padMask (v1 i) :=
  padMask_word (v1 i)

theorem pay2_apply (v0 : Vec Ideal S1x128x1 .i32) (r : Fin 128) :
    k0_pay2 v0 (ix2 r (0 : Fin 1)) = v0 (ix3 (0 : Fin 1) r (0 : Fin 1)) := by
  unfold k0_pay2
  exact shapeCast_1ab_ab_apply v0 _ r 0

theorem row2_pay4 (v : Vec Ideal S1x128x3200 .f32) (r : Fin 128) : row2 (k0_pay4 v) r = row3 v r := by
  unfold k0_pay4; exact row2_cast v _ r
theorem row2_pay6 (v : Vec Ideal S1x128x3200 .f32) (r : Fin 128) : row2 (k0_pay6 v) r = row3 v r := by
  unfold k0_pay6; exact row2_cast v _ r
theorem row2_pay7 (v : Vec Ideal S1x128x3200 .f32) (r : Fin 128) : row2 (k0_pay7 v) r = row3 v r := by
  unfold k0_pay7; exact row2_cast v _ r
theorem row2_pay10 (v : Vec Ideal S1x128x3200 .f32) (r : Fin 128) : row2 (k0_pay10 v) r = row3 v r := by
  unfold k0_pay10; exact row2_cast v _ r
theorem row2_pay11 (v : Vec Ideal S1x128x3200 .f32) (r : Fin 128) : row2 (k0_pay11 v) r = row3 v r := by
  unfold k0_pay11; exact row2_cast v _ r
theorem row2_pay13 (v : Vec Ideal S1x128x3200 .f32) (r : Fin 128) : row2 (k0_pay13 v) r = row3 v r := by
  unfold k0_pay13; exact row2_cast v _ r
theorem row2_pay16 (v : Vec Ideal S1x128x3200 .f32) (r : Fin 128) : row2 (k0_pay16 v) r = row3 v r := by
  unfold k0_pay16; exact row2_cast v _ r
theorem row2_pay17 (v : Vec Ideal S1x128x3200 .f32) (r : Fin 128) : row2 (k0_pay17 v) r = row3 v r := by
  unfold k0_pay17; exact row2_cast v _ r
theorem row2_pay20 (v : Vec Ideal S1x128x3200 .f32) (r : Fin 128) : row2 (k0_pay20 v) r = row3 v r := by
  unfold k0_pay20; exact row2_cast v _ r
theorem row2_pay21 (v : Vec Ideal S1x128x3200 .f32) (r : Fin 128) : row2 (k0_pay21 v) r = row3 v r := by
  unfold k0_pay21; exact row2_cast v _ r
theorem row2_pay24 (v : Vec Ideal S1x128x3200 .f32) (r : Fin 128) : row2 (k0_pay24 v) r = row3 v r := by
  unfold k0_pay24; exact row2_cast v _ r

theorem pay3_row (v5 v12 v19 v26 : Vec Ideal S1x128x3200 .f32) (r : Fin 128) :
    k0_pay3 v5 v12 v19 v26 (ix2 r (0 : Fin 1))
      = max (max (max (max ⊥ (fmax (row3 v5 r))) (fmax (row3 v12 r))) (fmax (row3 v19 r))) (fmax (row3 v26 r)) := by
  unfold k0_pay3
  dsimp only
  rw [maximumf_apply, maximumf_apply, maximumf_apply, maximumf_apply, rowMax_row, rowMax_row, rowMax_row, rowMax_row,
    row2_cast, row2_cast, row2_cast, row2_cast, bc_negInf]

theorem pay5_row (v30 : FVec Ideal S128x1 .f32) (v34 : FVec Ideal S128x3200 .f32) (v40 v47 v54 v61 v68 : Vec Ideal S1x128x3200 .f32) (r : Fin 128) :
    k0_pay5 v30 v34 v40 v47 v54 v61 v68 (ix2 r (0 : Fin 1))
      = max (max (max (max (max (max (v30 (ix2 r (0 : Fin 1))) (fmax (row2 v34 r))) (fmax (row3 v40 r))) (fmax (row3 v47 r)))
          (fmax (row3 v54 r))) (fmax (row3 v61 r))) (fmax (row3 v68 r)) := by
  unfold k0_pay5
  dsimp only
  rw [maximumf_apply, maximumf_apply, maximumf_apply, maximumf_apply, maximumf_apply, maximumf_apply,
    rowMax_row, rowMax_row, rowMax_row, rowMax_row, rowMax_row, rowMax_row,
    row2_cast, row2_cast, row2_cast, row2_cast, row2_cast]

theorem pay8_row (m : FVec Ideal S128x1 .f32) (v78 v97 : Vec Ideal S1x128x3200 .f32) (r : Fin 128) :
    k0_pay8 m v78 v97 (ix2 r (0 : Fin 1))
      = 0 + fsum (row3 v78 r) (m (ix2 r (0 : Fin 1))) + fsum (row3 v97 r) (m (ix2 r (0 : Fin 1))) := by
  unfold k0_pay8
  dsimp only
  rw [addf_apply, addf_apply, rowSumExp_row, rowSumExp_row, row2_pay6, row2_pay7, bc_zero]

theorem pay9_row (v1 : IVec S128x1 32) (v73 : IVec S128x3200 32) (v78 v97 : Vec Ideal S1x128x3200 .f32) (r : Fin 128) :
    k0_pay9 v1 v73 v78 v97 (ix2 r (0 : Fin 1))
      = 0 + fpick (row3 v78 r) (row2 v73 r) (v1 (ix2 r (0 : Fin 1)) - 0#32)
          + fpick (row3 v97 r) (row2 v73 r) (v1 (ix2 r (0 : Fin 1)) - 3200#32) := by
  unfold k0_pay9
  dsimp only
  rw [addf_apply, addf_apply, rowPick_row, rowPick_row, subi_bc_apply, subi_bc_apply, row2_pay6, row2_pay7, bc_zero]

theorem pay12_row (v1 : IVec S128x1 32) (v73 : IVec S128x3200 32) (v113 : FVec Ideal S128x1 .f32) (v114 : BitVec 32)
    (v116 v135 : Vec Ideal S1x128x3200 .f32) (r : Fin 128) :
    k0_pay12 v1 v73 v113 v114 v116 v135 (ix2 r (0 : Fin 1))
      = v113 (ix2 r (0 : Fin 1)) + fpick (row3 v116 r) (row2 v73 r) (v1 (ix2 r (0 : Fin 1)) - v114)
          + fpick (row3 v135 r) (row2 v73 r) (v1 (ix2 r (0 : Fin 1)) - 9600#32) := by
  unfold k0_pay12
  dsimp only
  rw [addf_apply, addf_apply, rowPick_row, rowPick_row, subi_bc_apply, subi_bc_apply, row2_pay10, row2_pay11]

theorem pay14_row (v72 v104 : FVec Ideal S128x1 .f32) (v116 v135 v154 : Vec Ideal S1x128x3200 .f32) (r : Fin 128) :
    k0_pay14 v72 v104 v116 v135 v154 (ix2 r (0 : Fin 1))
      = v104 (ix2 r (0 : Fin 1)) + fsum (row3 v116 r) (v72 (ix2 r (0 : Fin 1))) + fsum (row3 v135 r) (v72 (ix2 r (0 : Fin 1))) + fsum (row3 v154 r) (v72 (ix2 r (0 : Fin 1))) := by
  unfold k0_pay14
  dsimp only
  rw [addf_apply, addf_apply, addf_apply, rowSumExp_row, rowSumExp_row, rowSumExp_row, row2_pay10, row2_pay11, row2_pay13]

theorem pay15_apply (v1 : IVec S128x1 32) (i : S128x1.Idx) : k0_pay15 v1 i = v1 i - 12800#32 := by
  unfold k0_pay15
  exact subi_bc_apply v1 _ i

theorem pay18_row (v72 v161 : FVec Ideal S128x1 .f32) (v173 v192 : Vec Ideal S1x128x3200 .f32) (r : Fin 128) :
    k0_pay18 v72 v161 v173 v192 (ix2 r (0 : Fin 1))
      = v161 (ix2 r (0 : Fin 1)) + fsum (row3 v173 r) (v72 (ix2 r (0 : Fin 1))) + fsum (row3 v192 r) (v72 (ix2 r (0 : Fin 1))) := by
  unfold k0_pay18
  dsimp only
  rw [addf_apply, addf_apply, rowSumExp_row, rowSumExp_row, row2_pay16, row2_pay17]

theorem pay19_row (v1 : IVec S128x1 32) (v73 : IVec S128x3200 32) (v151 : FVec Ideal S128x1 .f32) (v155 : FVec Ideal S128x3200 .f32)
    (v163 : IVec S128x1 32) (v173 v192 : Vec Ideal S1x128x3200 .f32) (r : Fin 128) :
    k0_pay19 v1 v73 v151 v155 v163 v173 v192 (ix2 r (0 : Fin 1))
      = v151 (ix2 r (0 : Fin 1)) + fpick (row2 v155 r) (row2 v73 r) (v163 (ix2 r (0 : Fin 1)))
          + fpick (row3 v173 r) (row2 v73 r) (v1 (ix2 r (0 : Fin 1)) - 16000#32)
          + fpick (row3 v192 r) (row2 v73 r) (v1 (ix2 r (0 : Fin 1)) - 19200#32) := by
  unfold k0_pay19
  dsimp only
  rw [addf_apply, addf_apply, addf_apply, rowPick_row, rowPick_row, rowPick_row, subi_bc_apply, subi_bc_apply, row2_pay16, row2_pay17]

theorem pay22_row (v72 v199 : FVec Ideal S128x1 .f32) (v211 v230 : Vec Ideal S1x128x3200 .f32) (r : Fin 128) :
    k0_pay22 v72 v199 v211 v230 (ix2 r (0 : Fin 1))
      = v199 (ix2 r (0 : Fin 1)) + fsum (row3 v211 r) (v72 (ix2 r (0 : Fin 1))) + fsum (row3 v230 r) (v72 (ix2 r (0 : Fin 1))) := by
  unfold k0_pay22
  dsimp only
  rw [addf_apply, addf_apply, rowSumExp_row, rowSumExp_row, row2_pay20, row2_pay21]

theorem pay23_row (v1 : IVec S128x1 32) (v73 : IVec S128x3200 32) (v208 : FVec Ideal S128x1 .f32) (c : BitVec 32)
    (v211 v230 : Vec Ideal S1x128x3200 .f32) (r : Fin 128) :
    k0_pay23 v1 v73 v208 c v211 v230 (ix2 r (0 : Fin 1))
      = v208 (ix2 r (0 : Fin 1)) + fpick (row3 v211 r) (row2 v73 r) (v1 (ix2 r (0 : Fin 1)) - c)
          + fpick (row3 v230 r) (row2 v73 r) (v1 (ix2 r (0 : Fin 1)) - 25600#32) := by
  unfold k0_pay23
  dsimp only
  rw [addf_apply, addf_apply, rowPick_row, rowPick_row, subi_bc_apply, subi_bc_apply, row2_pay20, row2_pay21]

theorem pay25_sum (m : FVec Ideal S128x1 .f32) (v : Vec Ideal S1x128x3200 .f32) (r : Fin 128) :
    ∑ j : Fin 3200, k0_pay25 m v (ix2 r j) = fsum (row3 v r) (m (ix2 r (0 : Fin 1))) := by
  unfold k0_pay25 fsum
  refine Finset.sum_congr rfl fun j _ => ?_
  show Ideal.exp (row2 (k0_pay24 v) r j - broadcastTo S128x3200 m _ (ix2 r j)) = _
  rw [bcast_col, row2_pay24]

theorem pay1_row (v1 : IVec S128x1 32) (v72 : FVec Ideal S128x1 .f32) (v73 : IVec S128x3200 32) (v237 v246 : FVec Ideal S128x1 .f32)
    (v247 : BitVec 32) (v250 v253 : FVec Ideal S128x3200 .f32) (r : Fin 128) :
    k0_pay1 v1 v72 v73 v237 v246 v247 v250 v253 (ix3 (0 : Fin 1) r (0 : Fin 1))
      = ((v246 (ix2 r (0 : Fin 1)) + fpick (row2 v250 r) (row2 v73 r) (v1 (ix2 r (0 : Fin 1)) - v247))
          - (v72 (ix2 r (0 : Fin 1)) + Ideal.log (v237 (ix2 r (0 : Fin 1)) + ∑ j : Fin 3200, v253 (ix2 r j)))) * padMask (v1 (ix2 r (0 : Fin 1))) := by
  unfold k0_pay1
  dsimp only
  rw [shapeCast_ab_1ab_apply, mulf_apply, subf_apply, addf_apply, addf_apply, log_apply, addf_apply, rowPick_row, subi_bc_apply,
    rowSum_apply, padMask_apply]

/-! ## The loads -/

/-- Row r of the logits block. -/
def rowOf (x0 : Vec Ideal S1x128x32000 .f32) (r : Fin 128) : Row := fun v => x0 (ix3 (0 : Fin 1) r v)
/-- The k-th stretch of a row. -/
def laneRow (X : Row) (k : Fin 10) : Fin 3200 → EReal := fun j => X (lane k j)

theorem row3_ld (x0 : Vec Ideal S1x128x32000 .f32) (r : Fin 128) (k : Fin 10) (o : Nat) (ho : o = 3200 * k.val)
    (inb : ∀ a, (![0, 0, o] : Fin 3 → Nat) a + S1x128x3200.size a ≤ S1x128x32000.size a) :
    row3 (View.ld x0 (Rect.unit (s := S1x128x32000) ![0, 0, o] S1x128x3200.size inb)) r = laneRow (rowOf x0 r) k := by
  subst ho
  funext j
  exact ld_at x0 (3200 * k.val) inb r j (lane k j).isLt

theorem row2_iota (h : S128x3200.Iotas .tc 32 [1]) (r : Fin 128) :
    row2 (iota .tc S128x3200 32 [1] h) r = fun j => BitVec.ofNat 32 j.val := by
  funext j
  exact (iota_single_apply .tc S128x3200 32 1 h (ix2 r j)).trans rfl

theorem fmax_lane (X : Row) (k : Fin 10) : fmax (laneRow X k) = stretchMax X k := rfl
theorem fsum_lane (X : Row) (m : EReal) (k : Fin 10) : fsum (laneRow X k) m = stretchSumExp X m k := rfl
theorem fpick_lane (X : Row) (id c : BitVec 32) (k : Fin 10) (hc : c = BitVec.ofNat 32 (3200 * k.val)) :
    fpick (laneRow X k) (fun j => BitVec.ofNat 32 j.val) (id - c) = stretchPick X id k := by subst hc; rfl

/-- Row `r` of the block the body stores is the sweep of row `r` of the logits block and target `r`. -/
theorem out_row (x0 : Vec Ideal S1x128x32000 .f32) (x1 : Vec Ideal S1x128x1 .i32) (r : Fin 128) :
    out0_2 (F := Ideal) x0 x1 (ix3 (0 : Fin 1) r (0 : Fin 1))
      = sweepTokLogProb (fun v => x0 (ix3 (0 : Fin 1) r v)) (x1 (ix3 (0 : Fin 1) r (0 : Fin 1))) := by
  have hz : (![0, 0, 0] : Fin 3 → Nat) = fun _ => 0 := by
    funext a; match a with | ⟨0, _⟩ => rfl | ⟨1, _⟩ => rfl | ⟨2, _⟩ => rfl
  unfold out0_2
  rw [View.canon_unit_zero (S := S1x128x1) hz]
  rw [pay1_row]
  rw [pay25_sum, row2_pay24, pay22_row, pay18_row, pay14_row, pay8_row, pay23_row, pay19_row, pay12_row, pay9_row, row2_pay13,
    pay15_apply, pay2_apply, pay5_row, pay3_row, row2_pay4]
  rw [View.ld_unit_zero (S := S1x128x1) hz]
  rw [row3_ld x0 r 0 0 rfl, row3_ld x0 r 1 3200 rfl, row3_ld x0 r 2 6400 rfl, row3_ld x0 r 3 9600 rfl, row3_ld x0 r 4 12800 rfl, row3_ld x0 r 5 16000 rfl, row3_ld x0 r 6 19200 rfl, row3_ld x0 r 7 22400 rfl, row3_ld x0 r 8 25600 rfl, row3_ld x0 r 9 28800 rfl, row2_iota]
  rw [fmax_lane, fmax_lane, fmax_lane, fmax_lane, fmax_lane, fmax_lane, fmax_lane, fmax_lane, fmax_lane, fmax_lane]
  rw [fsum_lane, fsum_lane, fsum_lane, fsum_lane, fsum_lane, fsum_lane, fsum_lane, fsum_lane, fsum_lane, fsum_lane]
  rw [fpick_lane (rowOf x0 r) _ 0#32 0 rfl,
    fpick_lane (rowOf x0 r) _ 3200#32 1 rfl,
    fpick_lane (rowOf x0 r) _ 6400#32 2 rfl,
    fpick_lane (rowOf x0 r) _ 9600#32 3 rfl,
    fpick_lane (rowOf x0 r) _ 12800#32 4 rfl,
    fpick_lane (rowOf x0 r) _ 16000#32 5 rfl,
    fpick_lane (rowOf x0 r) _ 19200#32 6 rfl,
    fpick_lane (rowOf x0 r) _ 22400#32 7 rfl,
    fpick_lane (rowOf x0 r) _ 25600#32 8 rfl,
    fpick_lane (rowOf x0 r) _ 28800#32 9 rfl]
  show _ = sweepTokLogProb (rowOf x0 r) (x1 (ix3 (0 : Fin 1) r (0 : Fin 1)))
  unfold sweepTokLogProb sweepPick sweepMax sweepSumExp
  rfl

end Cert.KernelIdeal.RowValue

end
-- ==== Proof.KernelArray.lean ====
/-
  From the body's block to the kernel's whole output array. The three windows move together: at grid point
  (b, s) each holds rows 128 s … 128 s + 127 of sequence b (all 32000 lanes of the logits, the one column of the
  targets, the one column of the result). Row r of the block the body stores is the sweep of row r of the logits
  block and target r (KernelRow.lean), that is of row 128 s + r of sequence b of the arrays themselves: every
  point writes back a block of ONE function of the arrays, `logProbs`, and the 64 blocks cover the [32, 256, 1]
  output array, which therefore ends holding `logProbs` of the logits and the targets as the region finds them.
-/
import proofs.«400205_j25640954757603_3_alg».proof.Proof.Gen.KernelIdeal.Frame
import proofs.«400205_j25640954757603_3_alg».proof.Proof.KernelRow
import proofs.«400205_j25640954757603_3_alg».proof.Proof.TokenLogProb
import Idealize.ShloMosaic.Lib.ValueIdx
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem Cert.TokenLogProb
open Idealize.ShloMosaic.Pipeline (Dat Cfg Window)

variable (m : (ℓ : Loc nD τ sig) → Buf (Elt Ideal) ℓ) (ρ : Dev nD → PrngReg)

/-- Entry `v` of the row of logits that position `i` of the [32, 256, 1] array belongs to. -/
abbrev rowAt (i : S32x256x1.Idx) (v : Fin 32000) : S32x256x32000.Idx := fun a => match a with
  | ⟨0, _⟩ => ⟨(i 0).val, (i 0).isLt⟩
  | ⟨1, _⟩ => ⟨(i 1).val, (i 1).isLt⟩
  | ⟨2, _⟩ => v

/-- The whole-array function: at each position the sweep of its row of logits and its target. -/
def logProbs (X : S32x256x32000.Idx → EReal) (I : S32x256x1.Idx → BitVec 32) : S32x256x1.Idx → EReal :=
  fun i => sweepTokLogProb (fun v => X (rowAt i v)) (I i)

/-- The printed index maps, decided over the grid: the three windows share their block indices, the lane and column
    block indices are zero, and the others stay in their ranges. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (1 : Fin 3)
    ∧ win0_1.index t (2 : Fin 3) = 0
    ∧ win0_2.index t (2 : Fin 3) = 0
    ∧ win0_2.index t (0 : Fin 3) ≤ 31 ∧ win0_2.index t (1 : Fin 3) ≤ 1 :=
  (by decide +kernel : ∀ t : Fin grid0.N, _)

/-- Every block of the output array is some point's. -/
theorem idx_onto : ∀ (q0 : Fin 32) (q1 : Fin 2), ∃ t : Fin cfg0.N, win0_2.index t = ![q0.val, q1.val, 0] :=
  (by decide +kernel : ∀ (q0 : Fin 32) (q1 : Fin 2), ∃ t : Fin grid0.N, win0_2.index t = ![q0.val, q1.val, 0])

/-- What point `t` writes back is block `t` of `logProbs` of the arrays as the region finds them. -/
theorem flushed_eq (c : Dev nD) (t : Fin cfg0.N) :
    (dats m 0 c).flushed 2 t
      = ((cfg0.win 2).blk t).view.read (Elt Ideal) (logProbs (V m c main_arg0) (V m c main_v0)) := by
  show (cfg0.win 2).cut (grid0.coords t) ((dats m 0 c).after 2 t) = _
  rw [after0_2]
  obtain ⟨e0, e1, e2, e3, e4, e5, e6, e7, e8⟩ := idx_facts t
  funext j
  show out0_2 (iblk m c 0 t) (iblk m c 1 t) j
    = logProbs (V m c main_arg0) (V m c main_v0) (((cfg0.win 2).blk t).view.emb j)
  have hj0 : (j 0).val = 0 := by have : (j 0).val < 1 := (j 0).isLt; omega
  have hj2 : (j 2).val = 0 := by have : (j 2).val < 1 := (j 2).isLt; omega
  have hj : j = ix3 (0 : Fin 1) (⟨(j 1).val, (j 1).isLt⟩ : Fin 128) (0 : Fin 1) := by
    funext a; apply Fin.ext
    match a with
    | ⟨0, _⟩ => exact hj0
    | ⟨1, _⟩ => rfl
    | ⟨2, _⟩ => exact hj2
  refine (congrArg (out0_2 (iblk m c 0 t) (iblk m c 1 t)) hj).trans ?_
  refine (RowValue.out_row (iblk m c 0 t) (iblk m c 1 t) (⟨(j 1).val, (j 1).isLt⟩ : Fin 128)).trans ?_
  unfold logProbs
  have hrow : (fun v : Fin 32000 => iblk m c 0 t (ix3 (0 : Fin 1) (⟨(j 1).val, (j 1).isLt⟩ : Fin 128) v))
      = fun v : Fin 32000 => V m c main_arg0 (rowAt (((cfg0.win 2).blk t).view.emb j) v) := by
    funext v
    show V m c main_arg0 (((cfg0.win 0).blk t).view.emb (ix3 (0 : Fin 1) (⟨(j 1).val, (j 1).isLt⟩ : Fin 128) v)) = _
    refine congrArg (V m c main_arg0) ?_
    funext a; apply Fin.ext
    match a with
    | ⟨0, _⟩ =>
      show win0_0.index t (0 : Fin 3) * 1 + 1 * 0 = win0_2.index t (0 : Fin 3) * 1 + 1 * (j 0).val
      omega
    | ⟨1, _⟩ =>
      show win0_0.index t (1 : Fin 3) * 128 + 1 * (j 1).val = win0_2.index t (1 : Fin 3) * 128 + 1 * (j 1).val
      omega
    | ⟨2, _⟩ =>
      show win0_0.index t (2 : Fin 3) * 32000 + 1 * v.val = v.val
      omega
  have htgt : iblk m c 1 t (ix3 (0 : Fin 1) (⟨(j 1).val, (j 1).isLt⟩ : Fin 128) (0 : Fin 1))
      = V m c main_v0 (((cfg0.win 2).blk t).view.emb j) := by
    show V m c main_v0 (((cfg0.win 1).blk t).view.emb (ix3 (0 : Fin 1) (⟨(j 1).val, (j 1).isLt⟩ : Fin 128) (0 : Fin 1))) = _
    refine congrArg (V m c main_v0) ?_
    funext a; apply Fin.ext
    match a with
    | ⟨0, _⟩ =>
      show win0_1.index t (0 : Fin 3) * 1 + 1 * 0 = win0_2.index t (0 : Fin 3) * 1 + 1 * (j 0).val
      omega
    | ⟨1, _⟩ =>
      show win0_1.index t (1 : Fin 3) * 128 + 1 * (j 1).val = win0_2.index t (1 : Fin 3) * 128 + 1 * (j 1).val
      omega
    | ⟨2, _⟩ =>
      show win0_1.index t (2 : Fin 3) * 1 + 1 * 0 = win0_2.index t (2 : Fin 3) * 1 + 1 * (j 2).val
      omega
  rw [hrow, htgt]

/-- An index of the output array is in point `t`'s block iff each coordinate is in the block's range on its axis. -/
theorem mem_blk (t : Fin cfg0.N) (i : S32x256x1.Idx) :
    i ∈ ((cfg0.win 2).blk t).view.set ↔ ∀ a : Fin 3, win0_2.index t a * S1x128x1.size a ≤ (i a).val
      ∧ (i a).val < win0_2.index t a * S1x128x1.size a + S1x128x1.size a := by
  show i ∈ ((View.whole main_v1).slice (win0_2.rect t)).set ↔ _
  rw [View.set_slice_whole, Rect.mem_set_unit]
  exact Iff.rfl

/-- Every index of the output array is in some point's block. -/
theorem covered (i : S32x256x1.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 1 := (i 2).isLt
  obtain ⟨t, ht⟩ := idx_onto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 1 ≤ (i 2).val ∧ (i 2).val < win0_2.index t (2 : Fin 3) * 1 + 1
    omega

/-- The output array after the run: `logProbs` of the logits and the targets as the region finds them. -/
theorem final (c : Dev nD) :
    (dats m 0 c).arrAt 2 cfg0.N = logProbs (V m c main_arg0) (V m c main_v0) :=
  (dats m 0 c).arrAt_eq_of_cover 2 _ (fun t _ => flushed_eq m c t) covered

end Cert.KernelIdeal.ArrayValue

end
-- ==== Proof.PolicyLoss.lean ====
/-
  What both programs do with the [32, 256] array of token log-probabilities `lp` once they have it — the same
  chain of host operations in both, carried here as four functions of `lp` and of the four other float inputs and
  never opened: per sequence the sum of the log-probabilities; the policy ratio `exp (sum lp - sum old)` and its
  clip to [0.99, 1.01]; the advantage `rewards - values`; the policy loss, minus the mean over the 32 sequences of
  the smaller of ratio × advantage and clipped ratio × advantage; the fraction of sequences where the clipped
  product is the smaller; the KL term, 0.1 times the mean of `exp d - d - 1` with `d = sum pretrained - sum lp`;
  and their sum. The equivalence proof only needs that the two programs feed equal `lp` arrays into it.
-/
import Idealize.ShloMosaic.PureOps
import Idealize.ShloMosaic.PureOps.Ideal

noncomputable section

namespace Cert.PolicyLoss

open Idealize.ShloMosaic

abbrev S32x256 : Shape := ⟨2, ![32, 256]⟩
abbrev S32 : Shape := ⟨1, ![32]⟩
abbrev S_ : Shape := ⟨0, ![]⟩

variable (hrow : S32x256.ReducesTo [1] S32) (hall : S32.ReducesTo [0] S_) (hpos : 0 < S_.numel)
  (hb : S_.BroadcastsInDim S32 (![] : Fin 0 → Fin S32.rank))

/-- The sum over a sequence's 256 positions. -/
def seqSum (a : FVec Ideal S32x256 .f32) : FVec Ideal S32 .f32 :=
  Host.reduceAdd a (constant S_ .f32 0x00000000#32) hrow hpos

/-- The mean over the 32 sequences. -/
def batchMean (v : FVec Ideal S32 .f32) : FVec Ideal S_ .f32 :=
  Host.divf (Host.reduceAdd v (constant S_ .f32 0x00000000#32) hall hpos) (constant S_ .f32 0x42000000#32)

/-- The policy ratio. -/
def ratio (lp old : FVec Ideal S32x256 .f32) : FVec Ideal S32 .f32 :=
  Host.exp (subf (seqSum hrow hpos lp) (seqSum hrow hpos old))

/-- The ratio clipped to [0.99, 1.01]. -/
def clippedRatio (lp old : FVec Ideal S32x256 .f32) : FVec Ideal S32 .f32 :=
  minimumf (broadcastInDim S32 ![] hb (constant S_ .f32 0x3F8147AE#32))
    (maximumf (broadcastInDim S32 ![] hb (constant S_ .f32 0x3F7D70A4#32)) (ratio hrow hpos lp old))

/-- The policy loss. -/
def pgLoss (lp old : FVec Ideal S32x256 .f32) (rewards values : FVec Ideal S32 .f32) : FVec Ideal S_ .f32 :=
  Host.negf (batchMean hall hpos (minimumf (mulf (ratio hrow hpos lp old) (subf rewards values))
    (mulf (clippedRatio hrow hpos hb lp old) (subf rewards values))))

/-- The fraction of sequences whose clipped product is the smaller. -/
def clipFraction (lp old : FVec Ideal S32x256 .f32) (rewards values : FVec Ideal S32 .f32) : FVec Ideal S_ .f32 :=
  batchMean hall hpos (uitofp .f32 (cmpf .olt (mulf (clippedRatio hrow hpos hb lp old) (subf rewards values))
    (mulf (ratio hrow hpos lp old) (subf rewards values))))

/-- The KL term, with its coefficient 0.1. -/
def klTerm (lp pre : FVec Ideal S32x256 .f32) : FVec Ideal S_ .f32 :=
  mulf (constant S_ .f32 0x3DCCCCCD#32)
    (batchMean hall hpos (subf (subf (Host.exp (subf (seqSum hrow hpos pre) (seqSum hrow hpos lp)))
      (subf (seqSum hrow hpos pre) (seqSum hrow hpos lp))) (broadcastInDim S32 ![] hb (constant S_ .f32 0x3F800000#32))))

/-- The total loss. -/
def loss (lp old pre : FVec Ideal S32x256 .f32) (rewards values : FVec Ideal S32 .f32) : FVec Ideal S_ .f32 :=
  addf (pgLoss hrow hall hpos hb lp old rewards values) (klTerm hrow hall hpos hb lp pre)

end Cert.PolicyLoss

end
-- ==== Proof.KernelRun.lean ====
/-
  The idealized kernel's run, read: the region leaves `logProbs` of the logits and the reshaped targets in its
  [32, 256, 1] output array (KernelArray.lean); the host lines after the region reshape it to [32, 256] and apply
  the loss chain (PolicyLoss.lean) to it and to the other four inputs, which nothing has written. So each of the four
  results is its loss function of `kernelLogProbs` of the arguments, and the arguments end unchanged.
-/
import proofs.«400205_j25640954757603_3_alg».proof.Proof.Gen.KernelIdeal.Frame
import proofs.«400205_j25640954757603_3_alg».proof.Proof.KernelArray
import proofs.«400205_j25640954757603_3_alg».proof.Proof.PolicyLoss
import Idealize.ShloMosaic.Lib.StableHlo.Run
import Idealize.ShloMosaic.Lib.ValueIdx
import Idealize.ShloMosaic.Lib.Pipeline.Value

set_option maxRecDepth 16384

noncomputable section

namespace Cert.KernelIdeal.RunValue

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (ρ : Dev nD → PrngReg)

/-- The [32, 256] array of log-probabilities the kernel's program feeds its loss chain: the targets as a column, the
    sweep at every position, the column as a matrix again. -/
def kernelLogProbs (X : S32x256x32000.Idx → EReal) (I : S32x256.Idx → BitVec 32) : S32x256.Idx → EReal :=
  shapeCast S32x256 (ArrayValue.logProbs X (shapeCast S32x256x1 I shapeCasts_S32x256_S32x256x1))
    shapeCasts_S32x256x1_S32x256

/-- At position (b, t) it is the sweep of row (b, t) of the logits and of target (b, t): the two reshapes only add and
    drop the unit column. -/
theorem kernelLogProbs_apply (X : S32x256x32000.Idx → EReal) (I : S32x256.Idx → BitVec 32) (b : Fin 32) (t : Fin 256) :
    kernelLogProbs X I (ValueIdx.ix2 b t)
      = TokenLogProb.sweepTokLogProb (fun v => X (ValueIdx.ix3 b t v)) (I (ValueIdx.ix2 b t)) := by
  unfold kernelLogProbs
  rw [shapeCast_apply _ shapeCasts_S32x256x1_S32x256 (ValueIdx.ix2 b t) (ValueIdx.ix3 b t (0 : Fin 1)) (by
    rw [Shape.rowMajor_val_three, Shape.rowMajor_val_two]
    show (b.val * 256 + t.val) * 1 + 0 = b.val * 256 + t.val
    omega)]
  unfold ArrayValue.logProbs
  rw [shapeCast_apply _ shapeCasts_S32x256_S32x256x1 (ValueIdx.ix3 b t (0 : Fin 1)) (ValueIdx.ix2 b t) (by
    rw [Shape.rowMajor_val_three, Shape.rowMajor_val_two]
    show b.val * 256 + t.val = (b.val * 256 + t.val) * 1 + 0
    omega)]
  congr 1
  funext v
  refine congrArg X ?_
  funext a
  match a with
  | ⟨0, _⟩ => rfl
  | ⟨1, _⟩ => rfl
  | ⟨2, _⟩ => rfl

/-- The region finds the targets reshaped to a column by the one host line before it. -/
theorem targets_eq (c : Dev nD) :
    V m c main_v0 = shapeCast S32x256x1 (m ((c.tc : Thread nD τ).loc main_arg1)) shapeCasts_S32x256_S32x256x1 := by
  show StableHlo.after hostOps0 (fun b => m (c, b)) (Proc.devRef .tc main_v0) = _
  after_results
  rfl

/-- After the region its output array holds what the proof data computes; -/
theorem out_eq (c : Dev nD) :
    Pipeline.withArrays (cfgs 0).spec c (V0 m c) (fun w => (dats m 0 c).arrAt w (cfgs 0).N) (Proc.devRef .tc main_v1)
      = (dats m 0 c).arrAt 2 cfg0.N :=
  Pipeline.withArrays_arr spec0 launch0.win.arr_inj c _ _ 2
/-- and the other float inputs what they were launched with. -/
theorem arg2_eq (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans (V_main_arg2 m c)
theorem arg3_eq (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans (V_main_arg3 m c)
theorem arg4_eq (c : Dev nD) :
    Pipeline.withArrays (cfgs 0).spec c (V0 m c) (fun w => (dats m 0 c).arrAt w (cfgs 0).N) (Proc.devRef .tc main_arg4)
      = m ((c.tc : Thread nD τ).loc main_arg4) :=
  (Pipeline.withArrays_of_ne _ c (V0 m c) _ main_arg4 (by exact (by decide : ∀ w, Pipeline.arrRef spec0 w ≠ main_arg4))).trans (V_main_arg4 m c)
theorem arg5_eq (c : Dev nD) :
    Pipeline.withArrays (cfgs 0).spec c (V0 m c) (fun w => (dats m 0 c).arrAt w (cfgs 0).N) (Proc.devRef .tc main_arg5)
      = m ((c.tc : Thread nD τ).loc main_arg5) :=
  (Pipeline.withArrays_of_ne _ c (V0 m c) _ main_arg5 (by exact (by decide : ∀ w, Pipeline.arrRef spec0 w ≠ main_arg5))).trans (V_main_arg5 m c)

set_option maxHeartbeats 4000000 in
/-- What the lines after the region leave in `main_v30`: `loss` of the region's output array, reshaped, and of the
    other inputs as launched. -/
theorem tail_loss (c : Dev nD) :
    Pipeline.afterTail₀ cfgs (dats m) 0 (V0 m) [hostOps1, hostOps1_1, hostOps1_2] c main_v30
      = PolicyLoss.loss reducesTo_S32x256_S32_d1 reducesTo_S32_S_d0 h_S_ bcast_S_S32
          (shapeCast S32x256 ((dats m 0 c).arrAt 2 cfg0.N) shapeCasts_S32x256x1_S32x256) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after (List.flatten [hostOps1, hostOps1_1, hostOps1_2]) _ (Proc.devRef .tc main_v30) = _
  simp only [hostOps1, hostOps1_1, hostOps1_2, List.flatten_cons, List.flatten_nil, List.append_nil, List.cons_append,
    List.nil_append]
  after_results_simp
  simp only [out_eq m c, arg2_eq m c, arg3_eq m c, arg4_eq m c, arg5_eq m c]
  generalize (dats m 0 c).arrAt 2 cfg0.N = A
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  try simp only [TRef.ofBuf, TRef.toBuf, cast_eq]
  rfl

set_option maxHeartbeats 4000000 in
/-- What the lines after the region leave in `main_v14`: `pgLoss` of the region's output array, reshaped, and of the
    other inputs as launched. -/
theorem tail_pgLoss (c : Dev nD) :
    Pipeline.afterTail₀ cfgs (dats m) 0 (V0 m) [hostOps1, hostOps1_1, hostOps1_2] c main_v14
      = PolicyLoss.pgLoss reducesTo_S32x256_S32_d1 reducesTo_S32_S_d0 h_S_ bcast_S_S32
          (shapeCast S32x256 ((dats m 0 c).arrAt 2 cfg0.N) shapeCasts_S32x256x1_S32x256) (m ((c.tc : Thread nD τ).loc main_arg2)) (m ((c.tc : Thread nD τ).loc main_arg4)) (m ((c.tc : Thread nD τ).loc main_arg5)) := by
  unfold Pipeline.afterTail₀
  show StableHlo.after (List.flatten [hostOps1, hostOps1_1, hostOps1_2]) _ (Proc.devRef .tc main_v14) = _
  simp only [hostOps1, hostOps1_1, hostOps1_2, List.flatten_cons, List.flatten_nil, List.append_nil, List.cons_append,
    List.nil_append]
  after_results_simp
  simp only [out_eq m c, arg2_eq m c, arg3_eq m c, arg4_eq m c, arg5_eq m c]
  generalize (dats m 0 c).arrAt 2 cfg0.N = A
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  try simp only [TRef.ofBuf, TRef.toBuf, cast_eq]
  rfl

set_option maxHeartbeats 4000000 in
/-- What the lines after the region leave in `main_v31`: `klTerm` of the region's output array, reshaped, and of the
    other inputs as launched. -/
theorem tail_klTerm (c : Dev nD) :
    Pipeline.afterTail₀ cfgs (dats m) 0 (V0 m) [hostOps1, hostOps1_1, hostOps1_2] c main_v31
      = PolicyLoss.klTerm reducesTo_S32x256_S32_d1 reducesTo_S32_S_d0 h_S_ bcast_S_S32
          (shapeCast S32x256 ((dats m 0 c).arrAt 2 cfg0.N) shapeCasts_S32x256x1_S32x256) (m ((c.tc : Thread nD τ).loc main_arg3)) := by
  unfold Pipeline.afterTail₀
  show StableHlo.after (List.flatten [hostOps1, hostOps1_1, hostOps1_2]) _ (Proc.devRef .tc main_v31) = _
  simp only [hostOps1, hostOps1_1, hostOps1_2, List.flatten_cons, List.flatten_nil, List.append_nil, List.cons_append,
    List.nil_append]
  after_results_simp
  simp only [out_eq m c, arg2_eq m c, arg3_eq m c, arg4_eq m c, arg5_eq m c]
  generalize (dats m 0 c).arrAt 2 cfg0.N = A
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  try simp only [TRef.ofBuf, TRef.toBuf, cast_eq]
  rfl

set_option maxHeartbeats 4000000 in
/-- What the lines after the region leave in `main_v20`: `clipFraction` of the region's output array, reshaped, and of the
    other inputs as launched. -/
theorem tail_clipFraction (c : Dev nD) :
    Pipeline.afterTail₀ cfgs (dats m) 0 (V0 m) [hostOps1, hostOps1_1, hostOps1_2] c main_v20
      = PolicyLoss.clipFraction reducesTo_S32x256_S32_d1 reducesTo_S32_S_d0 h_S_ bcast_S_S32
          (shapeCast S32x256 ((dats m 0 c).arrAt 2 cfg0.N) shapeCasts_S32x256x1_S32x256) (m ((c.tc : Thread nD τ).loc main_arg2)) (m ((c.tc : Thread nD τ).loc main_arg4)) (m ((c.tc : Thread nD τ).loc main_arg5)) := by
  unfold Pipeline.afterTail₀
  show StableHlo.after (List.flatten [hostOps1, hostOps1_1, hostOps1_2]) _ (Proc.devRef .tc main_v20) = _
  simp only [hostOps1, hostOps1_1, hostOps1_2, List.flatten_cons, List.flatten_nil, List.append_nil, List.cons_append,
    List.nil_append]
  after_results_simp
  simp only [out_eq m c, arg2_eq m c, arg3_eq m c, arg4_eq m c, arg5_eq m c]
  generalize (dats m 0 c).arrAt 2 cfg0.N = A
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  try simp only [TRef.ofBuf, TRef.toBuf, cast_eq]
  rfl

/-- The output array, reshaped, is `kernelLogProbs` of the logits and the targets as launched. -/
theorem lp_eq (c : Dev nD) :
    shapeCast S32x256 ((dats m 0 c).arrAt 2 cfg0.N) shapeCasts_S32x256x1_S32x256
      = kernelLogProbs (m ((c.tc : Thread nD τ).loc main_arg0)) (m ((c.tc : Thread nD τ).loc main_arg1)) := by
  rw [ArrayValue.final m c, targets_eq m c, V_main_arg0 m c]
  rfl

/-- Every weakly fair execution of the idealized kernel's program terminates with each result at its loss function of
    `kernelLogProbs` of the arguments, and the arguments unchanged. -/
theorem run : θ_run defs (onTc (τ := τ) (main (F := Ideal))) ⟨m, fun _ => 0, ρ⟩ fun r => ∀ c : Dev nD,
      r.2.mem ((c.tc : Thread nD τ).loc main_v30)
          = PolicyLoss.loss reducesTo_S32x256_S32_d1 reducesTo_S32_S_d0 h_S_ bcast_S_S32
              (kernelLogProbs (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v14)
          = PolicyLoss.pgLoss reducesTo_S32x256_S32_d1 reducesTo_S32_S_d0 h_S_ bcast_S_S32
              (kernelLogProbs (m ((c.tc : Thread nD τ).loc main_arg0)) (m ((c.tc : Thread nD τ).loc main_arg1))) (m ((c.tc : Thread nD τ).loc main_arg2)) (m ((c.tc : Thread nD τ).loc main_arg4)) (m ((c.tc : Thread nD τ).loc main_arg5))
      ∧ r.2.mem ((c.tc : Thread nD τ).loc main_v31)
          = PolicyLoss.klTerm reducesTo_S32x256_S32_d1 reducesTo_S32_S_d0 h_S_ bcast_S_S32
              (kernelLogProbs (m ((c.tc : Thread nD τ).loc main_arg0)) (m ((c.tc : Thread nD τ).loc main_arg1))) (m ((c.tc : Thread nD τ).loc main_arg3))
      ∧ r.2.mem ((c.tc : Thread nD τ).loc main_v20)
          = PolicyLoss.clipFraction reducesTo_S32x256_S32_d1 reducesTo_S32_S_d0 h_S_ bcast_S_S32
              (kernelLogProbs (m ((c.tc : Thread nD τ).loc main_arg0)) (m ((c.tc : Thread nD τ).loc main_arg1))) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v30 (Pipeline.mem_restRefs_of main_v30 (by decide) (by decide))).trans ((tail_loss m c).trans (by rw [lp_eq m c])),
     ((h c).2 main_v14 (Pipeline.mem_restRefs_of main_v14 (by decide) (by decide))).trans ((tail_pgLoss m c).trans (by rw [lp_eq m c])),
     ((h c).2 main_v31 (Pipeline.mem_restRefs_of main_v31 (by decide) (by decide))).trans ((tail_klTerm m c).trans (by rw [lp_eq m c])),
     ((h c).2 main_v20 (Pipeline.mem_restRefs_of main_v20 (by decide) (by decide))).trans ((tail_clipFraction m c).trans (by rw [lp_eq m c])),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.RunValue

end
-- ==== Proof.RefRun.lean ====
/-
  The idealized reference's run, read in stretches. Its first 44 host operations — the row maxima of the logits, the
  shifted logits, the log-softmax, the targets as gather indices, the range test with the gather and the fill, the
  pad mask and the product — leave the [32, 256] array of masked log-probabilities, the stage `val_main_v7` of the
  logits and the targets, and touch no other input; its remaining 48 are the loss chain (PolicyLoss.lean) applied
  to that array and to the other four inputs. So each of the four results is its loss function of the reference's
  log-probability array, and the arguments end unchanged.
-/
import proofs.«400205_j25640954757603_3_alg».proof.Proof.ReferenceRun
import proofs.«400205_j25640954757603_3_alg».proof.Proof.ReferenceRead
import proofs.«400205_j25640954757603_3_alg».proof.Proof.PolicyLoss
import Idealize.ShloMosaic.Lib.StableHlo.Run
import Idealize.ShloMosaic.Lib.Pipeline.Frame

set_option maxRecDepth 16384

noncomputable section

namespace Cert.ReferenceIdeal.RunValue

open Cert.ReferenceIdeal Cert.ReferenceIdeal.Gen Idealize.ShloMosaic Idealize.ShloMosaic.TcCoe Idealize.SL.Sem
open Idealize.ShloMosaic.StableHlo

section Stretches

variable {F : FTy → Type} [FloatOps F]

/-- The 44 operations up to and including the masked log-probabilities, -/
abbrev headOps : List (HloOp τ sig (Elt F)) := (ValueP.ops (F := F)).take 44
/-- in six stretches: the row maxima of the logits (2 operations), -/
abbrev maxOps : List (HloOp τ sig (Elt F)) := (ValueP.ops (F := F)).take 2
/-- the logits less their row maximum (6), -/
abbrev shiftOps : List (HloOp τ sig (Elt F)) := ((ValueP.ops (F := F)).drop 2).take 6
/-- less the logarithm of the row's sum of exponentials: the log-softmax (7), -/
abbrev softmaxOps : List (HloOp τ sig (Elt F)) := ((ValueP.ops (F := F)).drop 8).take 7
/-- the targets as gather indices, negative ones counted from the end (9), -/
abbrev indexOps : List (HloOp τ sig (Elt F)) := ((ValueP.ops (F := F)).drop 15).take 9
/-- the range test, the gather and the fill (14), -/
abbrev gatherOps : List (HloOp τ sig (Elt F)) := ((ValueP.ops (F := F)).drop 24).take 14
/-- the pad mask and the product (6), -/
abbrev maskOps : List (HloOp τ sig (Elt F)) := ((ValueP.ops (F := F)).drop 38).take 6
/-- and the loss chain after them (48). -/
abbrev tailOps : List (HloOp τ sig (Elt F)) := (ValueP.ops (F := F)).drop 44

theorem ops_split : (ValueP.ops (F := F)) = headOps ++ tailOps := (List.take_append_drop 44 _).symm

theorem headOps_split : (headOps (F := F))
    = maxOps ++ (shiftOps ++ (softmaxOps ++ (indexOps ++ (gatherOps ++ maskOps)))) := by
  simp only [headOps, maxOps, shiftOps, softmaxOps, indexOps, gatherOps, maskOps, tailOps, ValueP.ops, List.take_succ_cons, List.take_zero, List.drop_succ_cons, List.drop_zero, List.cons_append, List.nil_append]

set_option maxHeartbeats 4000000 in
/-- The first stretch leaves the row-maximum stage of the logits (carried along the buffer's own type, which is the
    stage's type). -/
theorem max_out (W : Valuation τ sig (Elt F)) :
    after maxOps W (Proc.devRef .tc main_call0_v0) = ReadP.val_main_call0_v0 (F := F) (W (Proc.devRef .tc main_arg0)) := by
  simp only [headOps, maxOps, shiftOps, softmaxOps, indexOps, gatherOps, maskOps, tailOps, ValueP.ops, List.take_succ_cons, List.take_zero, List.drop_succ_cons, List.drop_zero]
  after_results_simp
  refine (cast_eq _ _).trans ?_
  rfl
set_option maxHeartbeats 4000000 in
/-- It writes neither the logits -/
theorem max_keeps_logits (W : Valuation τ sig (Elt F)) :
    after maxOps W (Proc.devRef .tc main_arg0) = W (Proc.devRef .tc main_arg0) := by
  simp only [headOps, maxOps, shiftOps, softmaxOps, indexOps, gatherOps, maskOps, tailOps, ValueP.ops, List.take_succ_cons, List.take_zero, List.drop_succ_cons, List.drop_zero]
  after_results_simp
set_option maxHeartbeats 4000000 in
/-- nor the targets. -/
theorem max_keeps (W : Valuation τ sig (Elt F)) :
    after maxOps W (Proc.devRef .tc main_arg1) = W (Proc.devRef .tc main_arg1) := by
  simp only [headOps, maxOps, shiftOps, softmaxOps, indexOps, gatherOps, maskOps, tailOps, ValueP.ops, List.take_succ_cons, List.take_zero, List.drop_succ_cons, List.drop_zero]
  after_results_simp

set_option maxHeartbeats 4000000 in
/-- The second stretch, finding row maxima `M` and the logits `a0`, leaves `a0` less `max (-∞) M` along each row, -/
theorem shift_out (W : Valuation τ sig (Elt F)) (a0 : FVec F S32x256x32000 .f32) (M : FVec F S32x256 .f32)
    (hM : W (Proc.devRef .tc main_call0_v0) = M) (hA : W (Proc.devRef .tc main_arg0) = a0) :
    after shiftOps W (Proc.devRef .tc main_call0_v5)
      = subf a0 (broadcastInDim S32x256x32000 ![0, 1, 2] bcast_S32x256x1_S32x256x32000_0_1_2
          (broadcastInDim S32x256x1 ![0, 1] bcast_S32x256_S32x256x1_0_1
            (maximumf (broadcastInDim S32x256 ![] bcast_S_S32x256 (constant S_ .f32 0xFF800000#32)) M))) := by
  simp only [headOps, maxOps, shiftOps, softmaxOps, indexOps, gatherOps, maskOps, tailOps, ValueP.ops, List.take_succ_cons, List.take_zero, List.drop_succ_cons, List.drop_zero]
  after_results_simp
  rw [hM, hA]
  rfl
/-- which, for the row-maximum stage, is the shifted-logits stage. -/
theorem shift_val (a0 : FVec F S32x256x32000 .f32) :
    subf a0 (broadcastInDim S32x256x32000 ![0, 1, 2] bcast_S32x256x1_S32x256x32000_0_1_2
        (broadcastInDim S32x256x1 ![0, 1] bcast_S32x256_S32x256x1_0_1
          (maximumf (broadcastInDim S32x256 ![] bcast_S_S32x256 (constant S_ .f32 0xFF800000#32))
            (ReadP.val_main_call0_v0 (F := F) a0))))
      = ReadP.val_main_call0_v5 (F := F) a0 := rfl
set_option maxHeartbeats 4000000 in
/-- It does not write the targets. -/
theorem shift_keeps (W : Valuation τ sig (Elt F)) :
    after shiftOps W (Proc.devRef .tc main_arg1) = W (Proc.devRef .tc main_arg1) := by
  simp only [headOps, maxOps, shiftOps, softmaxOps, indexOps, gatherOps, maskOps, tailOps, ValueP.ops, List.take_succ_cons, List.take_zero, List.drop_succ_cons, List.drop_zero]
  after_results_simp

set_option maxHeartbeats 4000000 in
/-- The third, finding the shifted logits, leaves the log-softmax stage -/
theorem softmax_out (W : Valuation τ sig (Elt F)) (a0 : FVec F S32x256x32000 .f32)
    (h5 : W (Proc.devRef .tc main_call0_v5) = ReadP.val_main_call0_v5 (F := F) a0) :
    after softmaxOps W (Proc.devRef .tc main_v0) = ReadP.val_main_v0 (F := F) a0 := by
  simp only [headOps, maxOps, shiftOps, softmaxOps, indexOps, gatherOps, maskOps, tailOps, ValueP.ops, List.take_succ_cons, List.take_zero, List.drop_succ_cons, List.drop_zero]
  after_results_simp
  rw [h5]
  rfl
set_option maxHeartbeats 4000000 in
/-- and does not write the targets. -/
theorem softmax_keeps (W : Valuation τ sig (Elt F)) :
    after softmaxOps W (Proc.devRef .tc main_arg1) = W (Proc.devRef .tc main_arg1) := by
  simp only [headOps, maxOps, shiftOps, softmaxOps, indexOps, gatherOps, maskOps, tailOps, ValueP.ops, List.take_succ_cons, List.take_zero, List.drop_succ_cons, List.drop_zero]
  after_results_simp

set_option maxHeartbeats 4000000 in
/-- The fourth leaves the index stage of the targets, -/
theorem index_out (W : Valuation τ sig (Elt F)) :
    after indexOps W (Proc.devRef .tc main_call1_v5) = ReadP.val_main_call1_v5 (F := F) (W (Proc.devRef .tc main_arg1)) := by
  simp only [headOps, maxOps, shiftOps, softmaxOps, indexOps, gatherOps, maskOps, tailOps, ValueP.ops, List.take_succ_cons, List.take_zero, List.drop_succ_cons, List.drop_zero]
  after_results_simp
  rfl
set_option maxHeartbeats 4000000 in
/-- and writes neither the log-softmax -/
theorem index_keeps_softmax (W : Valuation τ sig (Elt F)) :
    after indexOps W (Proc.devRef .tc main_v0) = W (Proc.devRef .tc main_v0) := by
  simp only [headOps, maxOps, shiftOps, softmaxOps, indexOps, gatherOps, maskOps, tailOps, ValueP.ops, List.take_succ_cons, List.take_zero, List.drop_succ_cons, List.drop_zero]
  after_results_simp
set_option maxHeartbeats 4000000 in
/-- nor the targets. -/
theorem index_keeps (W : Valuation τ sig (Elt F)) :
    after indexOps W (Proc.devRef .tc main_arg1) = W (Proc.devRef .tc main_arg1) := by
  simp only [headOps, maxOps, shiftOps, softmaxOps, indexOps, gatherOps, maskOps, tailOps, ValueP.ops, List.take_succ_cons, List.take_zero, List.drop_succ_cons, List.drop_zero]
  after_results_simp

set_option maxHeartbeats 4000000 in
/-- The fifth, finding those two stages, leaves the gathered log-probabilities, -/
theorem gather_out (W : Valuation τ sig (Elt F)) (a0 : FVec F S32x256x32000 .f32) (a1 : IVec S32x256 32)
    (h0 : W (Proc.devRef .tc main_v0) = ReadP.val_main_v0 (F := F) a0)
    (h5 : W (Proc.devRef .tc main_call1_v5) = ReadP.val_main_call1_v5 (F := F) a1) :
    after gatherOps W (Proc.devRef .tc main_v2) = ReadP.val_main_v2 (F := F) a0 a1 := by
  simp only [headOps, maxOps, shiftOps, softmaxOps, indexOps, gatherOps, maskOps, tailOps, ValueP.ops, List.take_succ_cons, List.take_zero, List.drop_succ_cons, List.drop_zero]
  after_results_simp
  rw [h0, h5]
  rfl
set_option maxHeartbeats 4000000 in
/-- and does not write the targets. -/
theorem gather_keeps (W : Valuation τ sig (Elt F)) :
    after gatherOps W (Proc.devRef .tc main_arg1) = W (Proc.devRef .tc main_arg1) := by
  simp only [headOps, maxOps, shiftOps, softmaxOps, indexOps, gatherOps, maskOps, tailOps, ValueP.ops, List.take_succ_cons, List.take_zero, List.drop_succ_cons, List.drop_zero]
  after_results_simp

set_option maxHeartbeats 4000000 in
/-- The sixth, finding the gathered values and the targets, leaves the masked log-probabilities. -/
theorem mask_out (W : Valuation τ sig (Elt F)) (a0 : FVec F S32x256x32000 .f32) (a1 : IVec S32x256 32)
    (h2 : W (Proc.devRef .tc main_v2) = ReadP.val_main_v2 (F := F) a0 a1)
    (h1 : W (Proc.devRef .tc main_arg1) = a1) :
    after maskOps W (Proc.devRef .tc main_v7) = ReadP.val_main_v7 (F := F) a0 a1 := by
  simp only [headOps, maxOps, shiftOps, softmaxOps, indexOps, gatherOps, maskOps, tailOps, ValueP.ops, List.take_succ_cons, List.take_zero, List.drop_succ_cons, List.drop_zero]
  after_results_simp
  rw [h2, h1]
  rfl

/-- The six stretches together leave the log-probability stage of the logits and the targets. -/
theorem head_lp (V : Valuation τ sig (Elt F)) :
    after maskOps (after gatherOps (after indexOps (after softmaxOps (after shiftOps (after maxOps V)))))
        (Proc.devRef .tc main_v7)
      = ReadP.val_main_v7 (F := F) (V (Proc.devRef .tc main_arg0)) (V (Proc.devRef .tc main_arg1)) :=
  have hT : ∀ W' : Valuation τ sig (Elt F), after softmaxOps (after shiftOps (after maxOps W')) (Proc.devRef .tc main_arg1)
      = W' (Proc.devRef .tc main_arg1) :=
    fun W' => (softmax_keeps _).trans ((shift_keeps _).trans (max_keeps W'))
  mask_out _ _ _
    (gather_out _ _ _
      ((index_keeps_softmax _).trans (softmax_out _ _
        ((shift_out _ _ _ (max_out V) (max_keeps_logits V)).trans (shift_val _))))
      ((index_out _).trans (congrArg _ (hT V))))
    ((gather_keeps _).trans ((index_keeps _).trans (hT V)))

/-- So the 44 operations leave the log-probability stage of the logits and the targets, -/
theorem head_out (V : Valuation τ sig (Elt F)) :
    after headOps V (Proc.devRef .tc main_v7)
      = ReadP.val_main_v7 (F := F) (V (Proc.devRef .tc main_arg0)) (V (Proc.devRef .tc main_arg1)) := by
  rw [headOps_split]
  simp only [StableHlo.after_append]
  exact head_lp V

set_option maxHeartbeats 4000000 in
/-- and write none of the other float inputs. -/
theorem head_keeps2 (W : Valuation τ sig (Elt F)) :
    after headOps W (Proc.devRef .tc main_arg2) = W (Proc.devRef .tc main_arg2) := by
  simp only [maxOps, shiftOps, softmaxOps, indexOps, gatherOps, maskOps, tailOps, ValueP.ops, List.take_succ_cons, List.take_zero, List.drop_succ_cons, List.drop_zero]
  after_results_simp
set_option maxHeartbeats 4000000 in
/-- The same of input 3. -/
theorem head_keeps3 (W : Valuation τ sig (Elt F)) :
    after headOps W (Proc.devRef .tc main_arg3) = W (Proc.devRef .tc main_arg3) := by
  simp only [maxOps, shiftOps, softmaxOps, indexOps, gatherOps, maskOps, tailOps, ValueP.ops, List.take_succ_cons, List.take_zero, List.drop_succ_cons, List.drop_zero]
  after_results_simp
set_option maxHeartbeats 4000000 in
/-- The same of input 4. -/
theorem head_keeps4 (W : Valuation τ sig (Elt F)) :
    after headOps W (Proc.devRef .tc main_arg4) = W (Proc.devRef .tc main_arg4) := by
  simp only [maxOps, shiftOps, softmaxOps, indexOps, gatherOps, maskOps, tailOps, ValueP.ops, List.take_succ_cons, List.take_zero, List.drop_succ_cons, List.drop_zero]
  after_results_simp
set_option maxHeartbeats 4000000 in
/-- The same of input 5. -/
theorem head_keeps5 (W : Valuation τ sig (Elt F)) :
    after headOps W (Proc.devRef .tc main_arg5) = W (Proc.devRef .tc main_arg5) := by
  simp only [maxOps, shiftOps, softmaxOps, indexOps, gatherOps, maskOps, tailOps, ValueP.ops, List.take_succ_cons, List.take_zero, List.drop_succ_cons, List.drop_zero]
  after_results_simp

end Stretches

set_option maxHeartbeats 4000000 in
/-- The second stretch leaves in `main_v35` the loss chain's `loss` of what it finds in the log-probability buffer and
    the other inputs. -/
theorem tail_loss (W : Valuation τ sig (Elt Ideal)) :
    after tailOps W (Proc.devRef .tc main_v35)
      = PolicyLoss.loss reducesTo_S32x256_S32_d1 reducesTo_S32_S_d0 h_S_ bcast_S_S32 (W (Proc.devRef .tc main_v7)) (W (Proc.devRef .tc main_arg2)) (W (Proc.devRef .tc main_arg3)) (W (Proc.devRef .tc main_arg4)) (W (Proc.devRef .tc main_arg5)) := by
  simp only [tailOps, ValueP.ops, List.drop_succ_cons, List.drop_zero]
  after_results_simp
  generalize W (Proc.devRef .tc main_v7) = lp
  generalize W (Proc.devRef .tc main_arg2) = a2
  generalize W (Proc.devRef .tc main_arg3) = a3
  generalize W (Proc.devRef .tc main_arg4) = a4
  generalize W (Proc.devRef .tc main_arg5) = a5
  try simp only [TRef.ofBuf, TRef.toBuf, cast_eq]
  rfl

set_option maxHeartbeats 4000000 in
/-- The second stretch leaves in `main_v19` the loss chain's `pgLoss` of what it finds in the log-probability buffer and
    the other inputs. -/
theorem tail_pgLoss (W : Valuation τ sig (Elt Ideal)) :
    after tailOps W (Proc.devRef .tc main_v19)
      = PolicyLoss.pgLoss reducesTo_S32x256_S32_d1 reducesTo_S32_S_d0 h_S_ bcast_S_S32 (W (Proc.devRef .tc main_v7)) (W (Proc.devRef .tc main_arg2)) (W (Proc.devRef .tc main_arg4)) (W (Proc.devRef .tc main_arg5)) := by
  simp only [tailOps, ValueP.ops, List.drop_succ_cons, List.drop_zero]
  after_results_simp
  generalize W (Proc.devRef .tc main_v7) = lp
  generalize W (Proc.devRef .tc main_arg2) = a2
  generalize W (Proc.devRef .tc main_arg3) = a3
  generalize W (Proc.devRef .tc main_arg4) = a4
  generalize W (Proc.devRef .tc main_arg5) = a5
  try simp only [TRef.ofBuf, TRef.toBuf, cast_eq]
  rfl

set_option maxHeartbeats 4000000 in
/-- The second stretch leaves in `main_v36` the loss chain's `klTerm` of what it finds in the log-probability buffer and
    the other inputs. -/
theorem tail_klTerm (W : Valuation τ sig (Elt Ideal)) :
    after tailOps W (Proc.devRef .tc main_v36)
      = PolicyLoss.klTerm reducesTo_S32x256_S32_d1 reducesTo_S32_S_d0 h_S_ bcast_S_S32 (W (Proc.devRef .tc main_v7)) (W (Proc.devRef .tc main_arg3)) := by
  simp only [tailOps, ValueP.ops, List.drop_succ_cons, List.drop_zero]
  after_results_simp
  generalize W (Proc.devRef .tc main_v7) = lp
  generalize W (Proc.devRef .tc main_arg2) = a2
  generalize W (Proc.devRef .tc main_arg3) = a3
  generalize W (Proc.devRef .tc main_arg4) = a4
  generalize W (Proc.devRef .tc main_arg5) = a5
  try simp only [TRef.ofBuf, TRef.toBuf, cast_eq]
  rfl

set_option maxHeartbeats 4000000 in
/-- The second stretch leaves in `main_v25` the loss chain's `clipFraction` of what it finds in the log-probability buffer and
    the other inputs. -/
theorem tail_clipFraction (W : Valuation τ sig (Elt Ideal)) :
    after tailOps W (Proc.devRef .tc main_v25)
      = PolicyLoss.clipFraction reducesTo_S32x256_S32_d1 reducesTo_S32_S_d0 h_S_ bcast_S_S32 (W (Proc.devRef .tc main_v7)) (W (Proc.devRef .tc main_arg2)) (W (Proc.devRef .tc main_arg4)) (W (Proc.devRef .tc main_arg5)) := by
  simp only [tailOps, ValueP.ops, List.drop_succ_cons, List.drop_zero]
  after_results_simp
  generalize W (Proc.devRef .tc main_v7) = lp
  generalize W (Proc.devRef .tc main_arg2) = a2
  generalize W (Proc.devRef .tc main_arg3) = a3
  generalize W (Proc.devRef .tc main_arg4) = a4
  generalize W (Proc.devRef .tc main_arg5) = a5
  try simp only [TRef.ofBuf, TRef.toBuf, cast_eq]
  rfl

variable (m : (ℓ : Loc nD τ sig) → Buf (Elt Ideal) ℓ) (ρ : Dev nD → PrngReg)

/-- The whole run's `main_v35`: `loss` of the reference's log-probability array and the inputs as launched. -/
theorem res_loss (c : Dev nD) :
    after (ValueP.ops (F := Ideal)) (launchContents m c) (Proc.devRef .tc main_v35)
      = PolicyLoss.loss reducesTo_S32x256_S32_d1 reducesTo_S32_S_d0 h_S_ bcast_S_S32 (ReadP.val_main_v7 (F := Ideal) (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) := by
  rw [ops_split, StableHlo.after_append, tail_loss, head_out, head_keeps2, head_keeps3, head_keeps4, head_keeps5]

/-- The whole run's `main_v19`: `pgLoss` of the reference's log-probability array and the inputs as launched. -/
theorem res_pgLoss (c : Dev nD) :
    after (ValueP.ops (F := Ideal)) (launchContents m c) (Proc.devRef .tc main_v19)
      = PolicyLoss.pgLoss reducesTo_S32x256_S32_d1 reducesTo_S32_S_d0 h_S_ bcast_S_S32 (ReadP.val_main_v7 (F := Ideal) (m ((c.tc : Thread nD τ).loc main_arg0)) (m ((c.tc : Thread nD τ).loc main_arg1))) (m ((c.tc : Thread nD τ).loc main_arg2)) (m ((c.tc : Thread nD τ).loc main_arg4)) (m ((c.tc : Thread nD τ).loc main_arg5)) := by
  rw [ops_split, StableHlo.after_append, tail_pgLoss, head_out, head_keeps2, head_keeps4, head_keeps5]

/-- The whole run's `main_v36`: `klTerm` of the reference's log-probability array and the inputs as launched. -/
theorem res_klTerm (c : Dev nD) :
    after (ValueP.ops (F := Ideal)) (launchContents m c) (Proc.devRef .tc main_v36)
      = PolicyLoss.klTerm reducesTo_S32x256_S32_d1 reducesTo_S32_S_d0 h_S_ bcast_S_S32 (ReadP.val_main_v7 (F := Ideal) (m ((c.tc : Thread nD τ).loc main_arg0)) (m ((c.tc : Thread nD τ).loc main_arg1))) (m ((c.tc : Thread nD τ).loc main_arg3)) := by
  rw [ops_split, StableHlo.after_append, tail_klTerm, head_out, head_keeps3]

/-- The whole run's `main_v25`: `clipFraction` of the reference's log-probability array and the inputs as launched. -/
theorem res_clipFraction (c : Dev nD) :
    after (ValueP.ops (F := Ideal)) (launchContents m c) (Proc.devRef .tc main_v25)
      = PolicyLoss.clipFraction reducesTo_S32x256_S32_d1 reducesTo_S32_S_d0 h_S_ bcast_S_S32 (ReadP.val_main_v7 (F := Ideal) (m ((c.tc : Thread nD τ).loc main_arg0)) (m ((c.tc : Thread nD τ).loc main_arg1))) (m ((c.tc : Thread nD τ).loc main_arg2)) (m ((c.tc : Thread nD τ).loc main_arg4)) (m ((c.tc : Thread nD τ).loc main_arg5)) := by
  rw [ops_split, StableHlo.after_append, tail_clipFraction, head_out, head_keeps2, head_keeps4, head_keeps5]

set_option maxRecDepth 8192 in
set_option maxHeartbeats 36800000 in
/-- Every weakly fair execution of the idealized reference terminates with each result at its loss function of the
    reference's log-probability array, and the arguments unchanged. -/
theorem run : θ_run defs (onTc (τ := τ) (main (F := Ideal))) ⟨m, fun _ => 0, ρ⟩ fun r => ∀ c : Dev nD,
      r.2.mem ((c.tc : Thread nD τ).loc main_v35) = PolicyLoss.loss reducesTo_S32x256_S32_d1 reducesTo_S32_S_d0 h_S_ bcast_S_S32 (ReadP.val_main_v7 (F := Ideal) (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v19) = PolicyLoss.pgLoss reducesTo_S32x256_S32_d1 reducesTo_S32_S_d0 h_S_ bcast_S_S32 (ReadP.val_main_v7 (F := Ideal) (m ((c.tc : Thread nD τ).loc main_arg0)) (m ((c.tc : Thread nD τ).loc main_arg1))) (m ((c.tc : Thread nD τ).loc main_arg2)) (m ((c.tc : Thread nD τ).loc main_arg4)) (m ((c.tc : Thread nD τ).loc main_arg5))
      ∧ r.2.mem ((c.tc : Thread nD τ).loc main_v36) = PolicyLoss.klTerm reducesTo_S32x256_S32_d1 reducesTo_S32_S_d0 h_S_ bcast_S_S32 (ReadP.val_main_v7 (F := Ideal) (m ((c.tc : Thread nD τ).loc main_arg0)) (m ((c.tc : Thread nD τ).loc main_arg1))) (m ((c.tc : Thread nD τ).loc main_arg3))
      ∧ r.2.mem ((c.tc : Thread nD τ).loc main_v25) = PolicyLoss.clipFraction reducesTo_S32x256_S32_d1 reducesTo_S32_S_d0 h_S_ bcast_S_S32 (ReadP.val_main_v7 (F := Ideal) (m ((c.tc : Thread nD τ).loc main_arg0)) (m ((c.tc : Thread nD τ).loc main_arg1))) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v35).trans (res_loss m c),
      (h c main_v19).trans (res_pgLoss m c),
      (h c main_v36).trans (res_klTerm m c),
      (h c main_v25).trans (res_clipFraction m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq ValueP.scopedRefs_eq ValueP.scopedSems_eq defs main (fun _ => ValueP.ops) ValueP.main_eq (fun _ => ValueP.ops_sub) m ρ)

end Cert.ReferenceIdeal.RunValue

end
-- ==== Proof.PreRead.lean ====
/-
  What the precondition says of the two inputs the log-probabilities depend on: every logit is a real number, and
  every target token is inside the vocabulary.
-/
import proofs.«400205_j25640954757603_3_alg».proof.Pre_finite_inputs
import proofs.«400205_j25640954757603_3_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Read

open Cert.Pre_finite_inputs Idealize.ShloMosaic Idealize.ShloMosaic.ValueIdx

/-- The bit pattern of +inf reads as the top of the extended reals. -/
theorem inf_eq_top : Ideal.ofBits .f32 0x7F800000#32 = (⊤ : EReal) := by
  simp [Ideal.ofBits, Ideal.ieee]

/-- An extended real whose absolute value `max x (-x)` is strictly below +inf is a real number: at `⊥` and at `⊤` the
    absolute value is `⊤`, which is not below itself. -/
theorem real_of_abs_lt (x : EReal)
    (hx : Ideal.cmp .olt (max x (-x)) (Ideal.ofBits .f32 0x7F800000#32) = 1#1) : ∃ r : ℝ, x = (r : EReal) := by
  rw [inf_eq_top] at hx
  simp only [Ideal.cmp, StableHlo.Predicate.ofBool_eq_one_iff, decide_eq_true_eq] at hx
  induction x using EReal.rec with
  | bot => simp at hx
  | top => simp at hx
  | coe r => exact ⟨r, rfl⟩

/-- A 32-bit word that is, read signed, at least 0 and below 32000 is, read unsigned, below 32000: a signed value that is
    not negative is the unsigned value. -/
theorem lt_of_cmp (x : BitVec 32) (h1 : IntOp.cmpi .sge x 0#32 = 1#1) (h2 : IntOp.cmpi .slt x 32000#32 = 1#1) :
    x.toNat < 32000 := by
  simp only [IntOp.cmpi, StableHlo.Predicate.ofBool_eq_one_iff, BitVec.sle, BitVec.slt, decide_eq_true_eq] at h1 h2
  have e0 : (0#32 : BitVec 32).toInt = 0 := by decide
  have e1 : (32000#32 : BitVec 32).toInt = 32000 := by decide
  rw [e0] at h1
  rw [e1] at h2
  have hx := BitVec.toInt_eq_toNat_cond x
  have hlt := x.isLt
  split at hx <;> omega

/-- Under the precondition every logit is real and every target, read unsigned, is below 32000. -/
theorem of_pre (a0 : FVec Ideal S32x256x32000 .f32) (a1 : IVec S32x256 32) (a2 a3 : FVec Ideal S32x256 .f32)
    (a4 a5 : FVec Ideal S32 .f32)
    (h : Cert.Pre_finite_inputs.fn (F := Ideal) a0 a1 a2 a3 a4 a5 = fun _ => 1#1) :
    (∀ j, ∃ r : ℝ, a0 j = (r : EReal)) ∧ (∀ i, (a1 i).toNat < 32000) := by
  haveI : Subsingleton S_.Idx := ⟨fun a b => funext fun d => d.elim0⟩
  have h0 := congrFun h ValueIdx.ix0
  dsimp only [fn, fn_part1] at h0
  -- the precondition is a conjunction of six scalars, nested to the left: the targets' is the outermost conjunct, the
  -- logits' the deepest
  obtain ⟨h1, hB⟩ := IntOp.andi_eq_one.1 (show IntOp.andi _ _ = 1#1 from h0)
  obtain ⟨h2, -⟩ := IntOp.andi_eq_one.1 (show IntOp.andi _ _ = 1#1 from h1)
  obtain ⟨h3, -⟩ := IntOp.andi_eq_one.1 (show IntOp.andi _ _ = 1#1 from h2)
  obtain ⟨h4, -⟩ := IntOp.andi_eq_one.1 (show IntOp.andi _ _ = 1#1 from h3)
  obtain ⟨hA, -⟩ := IntOp.andi_eq_one.1 (show IntOp.andi _ _ = 1#1 from h4)
  refine ⟨fun j => ?_, fun i => ?_⟩
  · -- the conjunction over all logits is 1, so the compare at j is: |a0 j| < +inf
    have hj := Host.reduce_andi_all _ _ _ _ ix0 hA j
    exact real_of_abs_lt (a0 j) hj
  · -- the conjunction over all targets is 1, so both compares at i are: 0 ≤ a1 i and a1 i < 32000, signed
    have hi := Host.reduce_andi_all _ _ _ _ ix0 hB i
    obtain ⟨hge, hlt⟩ := IntOp.andi_eq_one.1 (show IntOp.andi _ _ = 1#1 from hi)
    exact lt_of_cmp (a1 i) hge hlt

end Cert.Pre_finite_inputs.Read

end
-- ==== Proof.RefRow.lean ====
/-
  One position of the reference's [32, 256] array of log-probabilities. The reference takes the log-softmax of the
  whole row — `(x v - M) - log (0 + ∑ k, exp (x k - M))` with `M` the maximum of `-∞` and the row's maximum —,
  gathers it at the target (a negative target counted from the end, a target outside the vocabulary answered by a NaN
  fill), and multiplies by the pad mask. For a target inside the vocabulary and a row of reals that is the textbook
  `tokLogProb`.
-/
import proofs.«400205_j25640954757603_3_alg».proof.Proof.ReferenceRead
import proofs.«400205_j25640954757603_3_alg».proof.Proof.TokenLogProb
import Idealize.ShloMosaic.Lib.ValueIdx
import Idealize.ShloMosaic.Lib.Pipeline.Value
import Idealize.ShloMosaic.PureOps.Ideal.Laws
import Idealize.ShloMosaic.PureOps.Reduce
import Idealize.ShloMosaic.Lib.StableHlo.Predicate

noncomputable section

namespace Cert.ReferenceIdeal.RowValue

open Cert.ReferenceIdeal Cert.ReferenceIdeal.Gen Idealize.ShloMosaic Idealize.ShloMosaic.ValueIdx Cert.TokenLogProb
open Idealize.ShloMosaic.StableHlo.Predicate

/-! ## Index equations -/

/-- Position (b, t) of the [32, 256] array is position (b, t, 0) of the [32, 256, 1] one. -/
theorem idx_v3_eq (b : Fin 32) (t : Fin 256) : ReadP.idx_main_v3 (ix2 b t) = ix3 b t (0 : Fin 1) := by
  funext a; refine Fin.ext ?_
  have hb := b.isLt; have ht := t.isLt
  match a with
  | ⟨0, _⟩ => show (b.val * 256 + t.val) / 256 = b.val; omega
  | ⟨1, _⟩ => show (b.val * 256 + t.val) / 1 % 256 = t.val; omega
  | ⟨2, _⟩ => rfl

/-- Position (b, t, 0, 0) of the [32, 256, 1, 1] array is position (b, t, 0) of the [32, 256, 1] one. -/
theorem idx_c1v5_eq (b : Fin 32) (t : Fin 256) :
    ReadP.idx_main_call1_v5 (ix4 b t (0 : Fin 1) (0 : Fin 1)) = ix3 b t (0 : Fin 1) := by
  funext a; refine Fin.ext ?_
  have hb := b.isLt; have ht := t.isLt
  match a with
  | ⟨0, _⟩ => show (((b.val * 256 + t.val) * 1 + 0) * 1 + 0) / 256 = b.val; omega
  | ⟨1, _⟩ => show (((b.val * 256 + t.val) * 1 + 0) * 1 + 0) / 1 % 256 = t.val; omega
  | ⟨2, _⟩ => rfl

/-- Position (b, t, 0) of the broadcast target array reads the target at (b, t). -/
theorem idx_v1_eq (b : Fin 32) (t : Fin 256) : ReadP.idx_main_v1 (ix3 b t (0 : Fin 1)) = ix2 b t := by
  funext a; match a with | ⟨0, _⟩ => rfl | ⟨1, _⟩ => rfl

/-- Every vocabulary entry of row (b, t) reads the row's maximum at (b, t, 0) … -/
theorem idx_c0v4_eq (b : Fin 32) (t : Fin 256) (v : Fin 32000) :
    ReadP.idx_main_call0_v4 (ix3 b t v) = ix3 b t (0 : Fin 1) := by
  funext a; match a with | ⟨0, _⟩ => rfl | ⟨1, _⟩ => rfl | ⟨2, _⟩ => rfl

/-- … which is the maximum at (b, t). -/
theorem idx_c0v3_eq (b : Fin 32) (t : Fin 256) : ReadP.idx_main_call0_v3 (ix3 b t (0 : Fin 1)) = ix2 b t := by
  funext a; match a with | ⟨0, _⟩ => rfl | ⟨1, _⟩ => rfl

/-- The k-th term of row (b, t)'s sum sits at (b, t, k). -/
theorem idx_c0v7_eq (b : Fin 32) (t : Fin 256) (k : Fin 32000) : ReadP.idx_main_call0_v7 (ix2 b t) k = ix3 b t k := by
  funext a; match a with | ⟨0, _⟩ => rfl | ⟨1, _⟩ => rfl | ⟨2, _⟩ => rfl

/-! ## The pad mask -/

/-- The converted comparison "target ≠ 0" is the pad mask: the real 0 at the pad token, 1 elsewhere. -/
theorem mask_at (x1 : IVec S32x256 32) (i : S32x256.Idx) :
    ReadP.val_main_v6 (F := Ideal) x1 i = padMask (x1 i) := by
  rw [ReadP.val_main_v6_apply, ReadP.val_main_v5_apply, ReadP.val_main_v4_apply, ReadP.val_main_c_apply]
  show (((IntOp.cmpi .ne (x1 i) 0#32).toNat : ℝ) : EReal) = padMask (x1 i)
  unfold padMask
  by_cases h : x1 i = 0#32
  · rw [if_pos h, h]
    have : IntOp.cmpi .ne (0#32) 0#32 = 0#1 := by decide
    rw [this]; simp
  · rw [if_neg h]
    have : IntOp.cmpi .ne (x1 i) 0#32 = 1#1 := by
      unfold IntOp.cmpi
      exact (ofBool_eq_one_iff _).2 (bne_iff_ne.2 h)
    rw [this]; simp

/-! ## The row's maximum -/

/-- The pattern of negative infinity is the bottom of the extended reals. -/
theorem negInf_eq : Ideal.ofBits .f32 0xFF800000#32 = (⊥ : EReal) := by simp [Ideal.ofBits, Ideal.ieee]

/-- The maximum of `-∞` and the fold of `max` from `-∞` along the vocabulary axis is the supremum of the row. -/
theorem rowMax_at (x0 : FVec Ideal S32x256x32000 .f32) (b : Fin 32) (t : Fin 256) :
    ReadP.val_main_call0_v2 (F := Ideal) x0 (ix2 b t) = Finset.univ.sup (fun v : Fin 32000 => x0 (ix3 b t v)) := by
  rw [ReadP.val_main_call0_v2_apply, ReadP.val_main_call0_v1_apply, ReadP.val_main_call0_cst_0_apply]
  unfold ReadP.val_main_call0_v0
  have hR : S32x256x32000.Reduces [2] S32x256 := by decide
  rw [Host.reduce_eq_fold_single FloatOps.maximumf x0 _ _ hR _ (ix2 b t)]
  have hf : (x0 ∘ hR.lift (ix2 b t)) = fun v : Fin 32000 => x0 (ix3 b t v) :=
    funext fun k => congrArg x0 (funext fun a => Fin.ext (by match a with | ⟨0, _⟩ => rfl | ⟨1, _⟩ => rfl | ⟨2, _⟩ => rfl))
  rw [hf, ReadP.val_main_call0_cst_apply]
  show max (Ideal.ofBits .f32 0xFF800000#32) (Finset.univ.fold max (Ideal.ofBits .f32 0xFF800000#32) _) = _
  rw [negInf_eq, max_bot_left]
  rfl

/-! ## The log-softmax of the row at one vocabulary entry -/

/-- Every vocabulary entry of row (b, t) reads the logarithm of the row's sum at (b, t, 0) … -/
theorem idx_c0v10_eq (b : Fin 32) (t : Fin 256) (v : Fin 32000) :
    ReadP.idx_main_call0_v10 (ix3 b t v) = ix3 b t (0 : Fin 1) := by
  funext a; match a with | ⟨0, _⟩ => rfl | ⟨1, _⟩ => rfl | ⟨2, _⟩ => rfl

/-- … which is the sum at (b, t). -/
theorem idx_c0v8_eq (b : Fin 32) (t : Fin 256) : ReadP.idx_main_call0_v8 (ix3 b t (0 : Fin 1)) = ix2 b t := by
  funext a; match a with | ⟨0, _⟩ => rfl | ⟨1, _⟩ => rfl

/-- Entry v of the log-softmax of row (b, t): `(x v - M) - log (0 + ∑ k, exp (x k - M))`, `M` the row's supremum. -/
theorem logSoftmax_at (x0 : FVec Ideal S32x256x32000 .f32) (b : Fin 32) (t : Fin 256) (v : Fin 32000) :
    ReadP.val_main_v0 (F := Ideal) x0 (ix3 b t v)
      = (x0 (ix3 b t v) - Finset.univ.sup (fun w : Fin 32000 => x0 (ix3 b t w)))
        - Ideal.log (0 + ∑ k : Fin 32000, Ideal.exp (x0 (ix3 b t k) - Finset.univ.sup (fun w : Fin 32000 => x0 (ix3 b t w)))) := by
  have hv4 : ∀ w : Fin 32000, ReadP.val_main_call0_v4 (F := Ideal) x0 (ix3 b t w)
      = Finset.univ.sup (fun w : Fin 32000 => x0 (ix3 b t w)) := fun w => by
    rw [ReadP.val_main_call0_v4_apply, idx_c0v4_eq, ReadP.val_main_call0_v3_apply, idx_c0v3_eq, rowMax_at]
  have hsum : ∀ k : Fin 32000, ReadP.val_main_call0_v6 (F := Ideal) x0 (ReadP.idx_main_call0_v7 (ix2 b t) k)
      = Ideal.exp (x0 (ix3 b t k) - Finset.univ.sup (fun w : Fin 32000 => x0 (ix3 b t w))) := fun k => by
    rw [idx_c0v7_eq, ReadP.val_main_call0_v6_apply, ReadP.val_main_call0_v5_apply, hv4]; rfl
  rw [ReadP.val_main_v0_apply, ReadP.val_main_call0_v5_apply, hv4, ReadP.val_main_call0_v10_apply, idx_c0v10_eq,
    ReadP.val_main_call0_v9_apply, ReadP.val_main_call0_v8_apply, idx_c0v8_eq, ReadP.val_main_call0_v7_apply,
    ReadP.val_main_call0_cst_1_apply]
  simp only [hsum, Ideal.subf_def, Ideal.hostUnary_log_def, Ideal.ofBits_def, Ideal.ofBits_zero_f32]

/-! ## The wrapped start index, the range test and the gather -/

/-- For a target below 32000 the wrapped start index at (b, t, 0, 0) is the target itself. -/
theorem wrapped_at (x1 : IVec S32x256 32) (b : Fin 32) (t : Fin 256) (hid : (x1 (ix2 b t)).toNat < 32000) :
    ReadP.val_main_call1_v5 (F := Ideal) x1 (ix4 b t (0 : Fin 1) (0 : Fin 1)) = x1 (ix2 b t) := by
  rw [ReadP.val_main_call1_v5_apply, idx_c1v5_eq, ReadP.val_main_call1_v4_apply, ReadP.val_main_call1_v1_apply,
    ReadP.val_main_v1_apply, idx_v1_eq, ReadP.val_main_call1_v0_apply, ReadP.val_main_call1_c_apply]
  have h0 : IntOp.cmpi .slt (x1 (ix2 b t)) 0#32 = 0#1 := by
    refine eq_zero_of_ne_one fun h => ?_
    exact Nat.not_lt_zero _ ((slt_iff_toNat (by omega) (by decide)).1 h)
  rw [h0, select_zero]

/-- A fold over the one-element index set applies the operation once. -/
theorem fold_fin_one {α : Type} (op : α → α → α) [Std.Commutative op] [Std.Associative op] (c : α) (f : Fin 1 → α) :
    (Finset.univ : Finset (Fin 1)).fold op c f = op (f 0) c := by
  rw [Finset.univ_unique, Finset.fold_singleton]; rfl

/-- For a target below 32000 the range test `0 ≤ index ≤ 31999`, reduced by `and` over a unit axis, is true. -/
theorem inRange_at (x1 : IVec S32x256 32) (b : Fin 32) (t : Fin 256) (hid : (x1 (ix2 b t)).toNat < 32000) :
    ReadP.val_main_call1_v12 (F := Ideal) x1 (ix3 b t (0 : Fin 1)) = 1#1 := by
  unfold ReadP.val_main_call1_v12
  have hR : S32x256x1x1.Reduces [3] S32x256x1 := by decide
  rw [Host.reduce_eq_fold_single IntOp.andi _ _ _ hR _ (ix3 b t (0 : Fin 1))]
  refine (fold_fin_one IntOp.andi _ _).trans ?_
  have hl : hR.lift (ix3 b t (0 : Fin 1)) (0 : Fin 1) = ix4 b t (0 : Fin 1) (0 : Fin 1) :=
    funext fun a => Fin.ext (by match a with | ⟨0, _⟩ => rfl | ⟨1, _⟩ => rfl | ⟨2, _⟩ => rfl | ⟨3, _⟩ => rfl)
  show IntOp.andi (ReadP.val_main_call1_v11 (F := Ideal) x1 (hR.lift (ix3 b t (0 : Fin 1)) (0 : Fin 1))) _ = 1#1
  rw [hl, ReadP.val_main_call1_c_3_apply, ReadP.val_main_call1_v11_apply, ReadP.val_main_call1_v7_apply,
    ReadP.val_main_call1_v10_apply, wrapped_at x1 b t hid, ReadP.val_main_call1_v6_apply, ReadP.val_main_call1_c_2_apply,
    ReadP.val_main_call1_v9_apply, ReadP.val_main_call1_v8_apply, ReadP.val_main_call1_c_1_apply]
  have h1 : IntOp.cmpi .sge (x1 (ix2 b t)) 0#32 = 1#1 := (sge_iff_toNat (by omega) (by decide)).2 (Nat.zero_le _)
  have h2 : IntOp.cmpi .sle (x1 (ix2 b t)) 31999#32 = 1#1 :=
    (sle_iff_toNat (by omega) (by decide)).2 (by show _ ≤ 31999; omega)
  rw [h1, h2]; rfl

/-- The gather with the two leading axes batched and the vocabulary axis indexed, at (b, t, 0): the operand at
    (b, t, the start index read signed and clamped into the vocabulary). -/
theorem gather_at {α : Type} (x : S32x256x32000.Idx → α) (idx : IVec S32x256x1x1 32) (b : Fin 32) (t : Fin 256) :
    Host.gather gather_S32x256x32000_S32x256x1x1_S32x256x1_n_2_01_01_2_3_111 x idx (ix3 b t (0 : Fin 1))
      = x (ix3 b t ⟨min (idx (ix4 b t (0 : Fin 1) (0 : Fin 1))).toInt.toNat 31999, by omega⟩) := by
  unfold Host.gather
  refine congrArg x (funext fun a => Fin.ext ?_)
  match a with
  | ⟨0, h0⟩ =>
    have e1 : gather_S32x256x32000_S32x256x1x1_S32x256x1_n_2_01_01_2_3_111.start (ix3 b t (0 : Fin 1)) idx ⟨0, h0⟩ = 0 := rfl
    have e2 : gather_S32x256x32000_S32x256x1x1_S32x256x1_n_2_01_01_2_3_111.batchCoord (ix3 b t (0 : Fin 1)) ⟨0, h0⟩ = b.val := rfl
    have e3 : gather_S32x256x32000_S32x256x1x1_S32x256x1_n_2_01_01_2_3_111.offCoord (ix3 b t (0 : Fin 1)) ⟨0, h0⟩ = 0 := rfl
    show gather_S32x256x32000_S32x256x1x1_S32x256x1_n_2_01_01_2_3_111.start (ix3 b t (0 : Fin 1)) idx ⟨0, h0⟩
      + gather_S32x256x32000_S32x256x1x1_S32x256x1_n_2_01_01_2_3_111.batchCoord (ix3 b t (0 : Fin 1)) ⟨0, h0⟩
      + gather_S32x256x32000_S32x256x1x1_S32x256x1_n_2_01_01_2_3_111.offCoord (ix3 b t (0 : Fin 1)) ⟨0, h0⟩ = b.val
    rw [e1, e2, e3, Nat.zero_add, Nat.add_zero]
  | ⟨1, h1⟩ =>
    have e1 : gather_S32x256x32000_S32x256x1x1_S32x256x1_n_2_01_01_2_3_111.start (ix3 b t (0 : Fin 1)) idx ⟨1, h1⟩ = 0 := rfl
    have e2 : gather_S32x256x32000_S32x256x1x1_S32x256x1_n_2_01_01_2_3_111.batchCoord (ix3 b t (0 : Fin 1)) ⟨1, h1⟩ = t.val := rfl
    have e3 : gather_S32x256x32000_S32x256x1x1_S32x256x1_n_2_01_01_2_3_111.offCoord (ix3 b t (0 : Fin 1)) ⟨1, h1⟩ = 0 := rfl
    show gather_S32x256x32000_S32x256x1x1_S32x256x1_n_2_01_01_2_3_111.start (ix3 b t (0 : Fin 1)) idx ⟨1, h1⟩
      + gather_S32x256x32000_S32x256x1x1_S32x256x1_n_2_01_01_2_3_111.batchCoord (ix3 b t (0 : Fin 1)) ⟨1, h1⟩
      + gather_S32x256x32000_S32x256x1x1_S32x256x1_n_2_01_01_2_3_111.offCoord (ix3 b t (0 : Fin 1)) ⟨1, h1⟩ = t.val
    rw [e1, e2, e3, Nat.zero_add, Nat.add_zero]
  | ⟨2, h2⟩ =>
    have e2 : gather_S32x256x32000_S32x256x1x1_S32x256x1_n_2_01_01_2_3_111.batchCoord (ix3 b t (0 : Fin 1)) ⟨2, h2⟩ = 0 := rfl
    have e3 : gather_S32x256x32000_S32x256x1x1_S32x256x1_n_2_01_01_2_3_111.offCoord (ix3 b t (0 : Fin 1)) ⟨2, h2⟩ = 0 := rfl
    show gather_S32x256x32000_S32x256x1x1_S32x256x1_n_2_01_01_2_3_111.start (ix3 b t (0 : Fin 1)) idx ⟨2, h2⟩
      + gather_S32x256x32000_S32x256x1x1_S32x256x1_n_2_01_01_2_3_111.batchCoord (ix3 b t (0 : Fin 1)) ⟨2, h2⟩
      + gather_S32x256x32000_S32x256x1x1_S32x256x1_n_2_01_01_2_3_111.offCoord (ix3 b t (0 : Fin 1)) ⟨2, h2⟩
      = min (idx (ix4 b t (0 : Fin 1) (0 : Fin 1))).toInt.toNat 31999
    rw [e2, e3]
    unfold GatherDims.start
    have hm : (⟨2, h2⟩ : Fin S32x256x32000.rank) ∈ gather_S32x256x32000_S32x256x1x1_S32x256x1_n_2_01_01_2_3_111.startIndexMap :=
      List.mem_singleton.mpr rfl
    rw [dif_pos hm]
    have hsi : gather_S32x256x32000_S32x256x1x1_S32x256x1_n_2_01_01_2_3_111.siIdx (ix3 b t (0 : Fin 1))
        ⟨List.idxOf (⟨2, h2⟩ : Fin S32x256x32000.rank) gather_S32x256x32000_S32x256x1x1_S32x256x1_n_2_01_01_2_3_111.startIndexMap,
          List.idxOf_lt_length_iff.2 hm⟩ = ix4 b t (0 : Fin 1) (0 : Fin 1) := by
      funext e; refine Fin.ext ?_
      match e with
      | ⟨0, _⟩ => rfl
      | ⟨1, _⟩ => rfl
      | ⟨2, _⟩ => rfl
      | ⟨3, _⟩ => rfl
    rw [hsi]
    rfl

/-- For a target below 32000 the gathered element at (b, t, 0) is the log-softmax of row (b, t) at the target. -/
theorem gathered_at (x0 : FVec Ideal S32x256x32000 .f32) (x1 : IVec S32x256 32) (b : Fin 32) (t : Fin 256)
    (hid : (x1 (ix2 b t)).toNat < 32000) :
    ReadP.val_main_call1_v13 (F := Ideal) x0 x1 (ix3 b t (0 : Fin 1))
      = ReadP.val_main_v0 (F := Ideal) x0 (ix3 b t ⟨(x1 (ix2 b t)).toNat, hid⟩) := by
  unfold ReadP.val_main_call1_v13
  refine (gather_at _ _ b t).trans ?_
  refine congrArg _ (congrArg (ix3 b t) (Fin.ext ?_))
  show min (ReadP.val_main_call1_v5 (F := Ideal) x1 (ix4 b t (0 : Fin 1) (0 : Fin 1))).toInt.toNat 31999 = (x1 (ix2 b t)).toNat
  rw [wrapped_at x1 b t hid, toInt_eq_toNat_of_lt (by omega), Int.toNat_natCast]
  omega

/-- At position (b, t), for real logits and a target inside the vocabulary, the reference's masked log-probability is
    the textbook one of row (b, t) and its target. -/
theorem logProb_at (x0 : FVec Ideal S32x256x32000 .f32) (x1 : IVec S32x256 32) (b : Fin 32) (t : Fin 256)
    (hx : ∀ j, ∃ r : ℝ, x0 j = (r : EReal)) (hid : (x1 (ix2 b t)).toNat < 32000) :
    ReadP.val_main_v7 (F := Ideal) x0 x1 (ix2 b t) = tokLogProb (fun v => x0 (ix3 b t v)) (x1 (ix2 b t)) := by
  rw [ReadP.val_main_v7_apply, mask_at, ReadP.val_main_v3_apply, idx_v3_eq, ReadP.val_main_v2_apply,
    inRange_at x1 b t hid, select_one, gathered_at x0 x1 b t hid, logSoftmax_at]
  unfold tokLogProb
  rw [dif_pos hid, zero_add]
  rfl

end Cert.ReferenceIdeal.RowValue

end
-- ==== Proof.RowMath.lean ====
/-
  The two-pass sweep over ten stretches computes the textbook log-probability on rows of real numbers and targets
  inside the vocabulary.
-/
import proofs.«400205_j25640954757603_3_alg».proof.Proof.TokenLogProb

noncomputable section

open scoped BigOperators

namespace Cert.TokenLogProb

open Idealize.ShloMosaic

/-- The ten stretches of 3200 lanes tile the vocabulary: `(k, j) ↦ 3200 k + j` is a bijection, with inverse
    `v ↦ (v / 3200, v % 3200)`. -/
def laneEquiv : Fin 10 × Fin 3200 ≃ Fin 32000 where
  toFun p := lane p.1 p.2
  invFun v := (⟨v.val / 3200, by omega⟩, ⟨v.val % 3200, by omega⟩)
  left_inv p := by
    rcases p with ⟨k, j⟩
    apply Prod.ext
    · apply Fin.ext
      show (3200 * k.val + j.val) / 3200 = k.val
      omega
    · apply Fin.ext
      show (3200 * k.val + j.val) % 3200 = j.val
      omega
  right_inv v := by
    apply Fin.ext
    show 3200 * (v.val / 3200) + v.val % 3200 = v.val
    omega

/-- A sum over the vocabulary is the sum over the stretches of the sums over their lanes. -/
theorem sum_lanes (f : Fin 32000 → EReal) : ∑ v, f v = ∑ k : Fin 10, ∑ j : Fin 3200, f (lane k j) := by
  rw [← laneEquiv.sum_comp f, Fintype.sum_prod_type]
  rfl

/-- A sum over ten indices, written out from the left and started from zero. -/
theorem sum_ten (g : Fin 10 → EReal) :
    ∑ k, g k = 0 + g 0 + g 1 + g 2 + g 3 + g 4 + g 5 + g 6 + g 7 + g 8 + g 9 := by
  rw [Fin.sum_univ_castSucc, Fin.sum_univ_castSucc, Fin.sum_univ_eight, zero_add]
  rfl

/-- The running sum of exponentials is the sum over the whole row. -/
theorem sweepSumExp_eq (x : Row) (m : EReal) : sweepSumExp x m = ∑ v, Ideal.exp (x v - m) := by
  rw [sum_lanes, sum_ten]
  rfl

/-- Every lane's logit is at most its stretch's maximum. -/
theorem le_stretchMax (x : Row) (k : Fin 10) (j : Fin 3200) : x (lane k j) ≤ stretchMax x k :=
  Finset.le_sup (f := fun j => x (lane k j)) (Finset.mem_univ j)

/-- A stretch's maximum is at most the row's supremum. -/
theorem stretchMax_le (x : Row) (k : Fin 10) : stretchMax x k ≤ Finset.univ.sup x :=
  Finset.sup_le (f := fun j => x (lane k j)) fun j _ => Finset.le_sup (Finset.mem_univ (lane k j))

/-- Every stretch's maximum is at most the running maximum. -/
theorem stretchMax_le_sweepMax (x : Row) (k : Fin 10) : stretchMax x k ≤ sweepMax x := by
  have h : ∀ i : Fin 10, i = 0 ∨ i = 1 ∨ i = 2 ∨ i = 3 ∨ i = 4 ∨ i = 5 ∨ i = 6 ∨ i = 7 ∨ i = 8 ∨ i = 9 := by decide
  unfold sweepMax
  rcases h k with rfl | rfl | rfl | rfl | rfl | rfl | rfl | rfl | rfl | rfl <;>
    simp only [le_max_iff, le_refl, true_or, or_true]

/-- The running maximum is the row's supremum. -/
theorem sweepMax_eq (x : Row) : sweepMax x = Finset.univ.sup x := by
  apply le_antisymm
  · unfold sweepMax
    simp only [max_le_iff]
    exact ⟨⟨⟨⟨⟨⟨⟨⟨⟨⟨bot_le, stretchMax_le x 0⟩, stretchMax_le x 1⟩, stretchMax_le x 2⟩, stretchMax_le x 3⟩,
      stretchMax_le x 4⟩, stretchMax_le x 5⟩, stretchMax_le x 6⟩, stretchMax_le x 7⟩, stretchMax_le x 8⟩,
      stretchMax_le x 9⟩
  · apply Finset.sup_le
    intro v _
    have hv : v = lane (laneEquiv.symm v).1 (laneEquiv.symm v).2 := (laneEquiv.apply_symm_apply v).symm
    rw [hv]
    exact (le_stretchMax x _ _).trans (stretchMax_le_sweepMax x _)

/-- For a target inside the vocabulary the 32-bit lane test says the lane is the target's vocabulary entry: all
    the numbers involved are far below `2 ^ 32`, so the wrapping subtraction does not wrap past the lanes. -/
theorem lane_test_iff (id : BitVec 32) (hid : id.toNat < 32000) (k : Fin 10) (j : Fin 3200) :
    BitVec.ofNat 32 j.val = id - BitVec.ofNat 32 (3200 * k.val) ↔ lane k j = ⟨id.toNat, hid⟩ := by
  have hk := k.isLt
  have hj := j.isLt
  rw [← BitVec.toNat_inj, BitVec.toNat_sub, BitVec.toNat_ofNat, BitVec.toNat_ofNat, Fin.ext_iff]
  show _ ↔ 3200 * k.val + j.val = id.toNat
  omega

/-- The running one-hot pick is the target's logit. -/
theorem sweepPick_eq (x : Row) (id : BitVec 32) (hid : id.toNat < 32000) :
    sweepPick x id = x ⟨id.toNat, hid⟩ := by
  have h : sweepPick x id = ∑ v : Fin 32000, if v = ⟨id.toNat, hid⟩ then x v else 0 := by
    rw [sum_lanes, sum_ten]
    unfold sweepPick stretchPick
    simp only [lane_test_iff id hid]
  rw [h, Finset.sum_ite_eq']
  simp only [Finset.mem_univ, if_true]

/-- The row's supremum is one of its entries, so it is a real number. -/
theorem sup_real (x : Row) (hx : ∀ v, ∃ r : ℝ, x v = (r : EReal)) : ∃ r : ℝ, Finset.univ.sup x = (r : EReal) := by
  obtain ⟨i, _, hi⟩ := Finset.exists_mem_eq_sup Finset.univ ⟨(0 : Fin 32000), Finset.mem_univ _⟩ x
  rw [hi]
  exact hx i

/-- With `a` and `M` real and `l` any extended real, `a - (M + l) = (a - M) - l`. -/
theorem sub_add_real (a M : ℝ) (l : EReal) : (a : EReal) - ((M : EReal) + l) = ((a : EReal) - (M : EReal)) - l := by
  rw [sub_eq_add_neg, EReal.neg_add (Or.inl (EReal.coe_ne_bot M)) (Or.inl (EReal.coe_ne_top M)), sub_eq_add_neg,
    sub_eq_add_neg, sub_eq_add_neg, add_assoc]

/-- On a row of reals and a target below 32000 the sweep is the textbook form. -/
theorem sweepTokLogProb_eq (x : Row) (id : BitVec 32) (hx : ∀ v, ∃ r : ℝ, x v = (r : EReal)) (hid : id.toNat < 32000) :
    sweepTokLogProb x id = tokLogProb x id := by
  obtain ⟨M, hM⟩ := sup_real x hx
  obtain ⟨a, ha⟩ := hx ⟨id.toNat, hid⟩
  unfold sweepTokLogProb tokLogProb
  rw [dif_pos hid, sweepPick_eq x id hid, sweepMax_eq, sweepSumExp_eq, hM, ha, sub_add_real]

end Cert.TokenLogProb

end
-- ==== Proof.LogProbsAgree.lean ====
/-
  Under the precondition the two programs feed their loss chains the same [32, 256] array of log-probabilities: at
  every position the kernel's is the ten-stretch sweep of the position's row and target, the reference's the textbook
  log-probability of the same row and target, and the two agree on rows of reals and targets inside the vocabulary.
-/
import proofs.«400205_j25640954757603_3_alg».proof.Proof.KernelRun
import proofs.«400205_j25640954757603_3_alg».proof.Proof.RefRow
import proofs.«400205_j25640954757603_3_alg».proof.Proof.RowMath

noncomputable section

namespace Cert.LogProbsAgree

open Idealize.ShloMosaic Idealize.ShloMosaic.ValueIdx

/-- Real logits and in-vocabulary targets: the kernel's log-probability array is the reference's. -/
theorem logProbs_agree (X : Cert.KernelIdeal.S32x256x32000.Idx → EReal) (I : Cert.KernelIdeal.S32x256.Idx → BitVec 32)
    (hX : ∀ j, ∃ r : ℝ, X j = (r : EReal)) (hI : ∀ i, (I i).toNat < 32000) :
    Cert.KernelIdeal.RunValue.kernelLogProbs X I = Cert.ReferenceIdeal.ReadP.val_main_v7 (F := Ideal) X I := by
  funext i
  obtain ⟨b, t, rfl⟩ : ∃ (b : Fin 32) (t : Fin 256), i = ix2 b t := ⟨i 0, i 1, eq_ix2 i⟩
  rw [Cert.KernelIdeal.RunValue.kernelLogProbs_apply]
  refine (Cert.TokenLogProb.sweepTokLogProb_eq _ _ (fun v => hX _) (hI _)).trans ?_
  exact (Cert.ReferenceIdeal.RowValue.logProb_at X I b t hX (hI _)).symm

end Cert.LogProbsAgree

end
-- ==== Proof.lean ====
/-
  The certificate's proof. Both programs compute, for each of 32 sequences of 256 positions, the log-probability
  that the softmax of the position's 32000 logits gives its target token, zero it at the pad token, and apply one and
  the same chain of host operations (the clipped policy-gradient loss, the KL term, the clip fraction) to the
  resulting [32, 256] array and the four other inputs. The kernel takes each row's log-probability by a two-pass sweep
  over ten stretches of 3200 lanes with a one-hot pick of the target's logit; the reference by a log-softmax of the
  whole row and a gather. On rows of real numbers and targets inside the vocabulary — what the precondition gives —
  the two are the same number (a running maximum is the maximum, a running sum the sum, a one-hot pick the picked
  entry, and `a - (M + l) = (a - M) - l` when `a` and `M` are real), so the two programs feed equal arrays into
  equal chains. The chain itself is never opened. The frames of the two kernel programs are the generated ones; the
  reference's frame is its run with the results dropped; the idealization rewrote nothing, so `preserves` is trivial.
-/
import proofs.«400205_j25640954757603_3_alg».proof.Defs
import proofs.«400205_j25640954757603_3_alg».proof.Proof.Gen.Kernel
import proofs.«400205_j25640954757603_3_alg».proof.Proof.Gen.Kernel.Frame
import proofs.«400205_j25640954757603_3_alg».proof.Proof.Gen.KernelIdeal
import proofs.«400205_j25640954757603_3_alg».proof.Proof.Gen.KernelIdeal.Frame
import proofs.«400205_j25640954757603_3_alg».proof.Proof.Gen.ReferenceIdeal
import proofs.«400205_j25640954757603_3_alg».proof.Proof.Gen.Pre_finite_inputs
import proofs.«400205_j25640954757603_3_alg».proof.Proof.KernelRun
import proofs.«400205_j25640954757603_3_alg».proof.Proof.RefRun
import proofs.«400205_j25640954757603_3_alg».proof.Proof.PreRead
import proofs.«400205_j25640954757603_3_alg».proof.Proof.LogProbsAgree
import Idealize.ShloMosaic.Adequacy
import Idealize.ShloMosaic.Init

set_option maxRecDepth 16384

noncomputable section

namespace Cert.Proof

open Idealize.ShloMosaic Idealize.SL.Sem

/-- The idealized kernel program and the idealized reference, run from memories that agree on the arguments and
    satisfy the precondition, end with equal results: each result is one function of the log-probability array and
    the other inputs, and the arrays agree. -/
theorem algebraic : Cert.algebraic_KernelIdeal_ReferenceIdeal := by
  intro m ρ m' ρ' hpre hagree
  refine ⟨fun c => PolicyLoss.loss Cert.KernelIdeal.Facts₀.reducesTo_S32x256_S32_d1 Cert.KernelIdeal.Facts₀.reducesTo_S32_S_d0 Cert.KernelIdeal.Facts₀.h_S_ Cert.KernelIdeal.Facts₀.bcast_S_S32 (Cert.KernelIdeal.RunValue.kernelLogProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => PolicyLoss.pgLoss Cert.KernelIdeal.Facts₀.reducesTo_S32x256_S32_d1 Cert.KernelIdeal.Facts₀.reducesTo_S32_S_d0 Cert.KernelIdeal.Facts₀.h_S_ Cert.KernelIdeal.Facts₀.bcast_S_S32 (Cert.KernelIdeal.RunValue.kernelLogProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => PolicyLoss.klTerm Cert.KernelIdeal.Facts₀.reducesTo_S32x256_S32_d1 Cert.KernelIdeal.Facts₀.reducesTo_S32_S_d0 Cert.KernelIdeal.Facts₀.h_S_ Cert.KernelIdeal.Facts₀.bcast_S_S32 (Cert.KernelIdeal.RunValue.kernelLogProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg3)),
    fun c => PolicyLoss.clipFraction Cert.KernelIdeal.Facts₀.reducesTo_S32x256_S32_d1 Cert.KernelIdeal.Facts₀.reducesTo_S32_S_d0 Cert.KernelIdeal.Facts₀.h_S_ Cert.KernelIdeal.Facts₀.bcast_S_S32 (Cert.KernelIdeal.RunValue.kernelLogProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.RunValue.run m ρ, ?_⟩
  refine (θ_run Cert.ReferenceIdeal.defs _ _).mono (fun _ h c => ?_) (Cert.ReferenceIdeal.RunValue.run m' ρ')
  obtain ⟨h0, h1, h2, h3, hrest⟩ := h c
  obtain ⟨e0, e1, e2, e3, e4, e5⟩ := hagree c
  obtain ⟨hreal, hvocab⟩ := Cert.Pre_finite_inputs.Read.of_pre _ _ _ _ _ _ (hpre c)
  have hlp := Cert.LogProbsAgree.logProbs_agree _ _ hreal hvocab
  rw [e0, e1, e2, e3, e4, e5] at h0
  rw [e0, e1, e2, e4, e5] at h1
  rw [e0, e1, e3] at h2
  rw [e0, e1, e2, e4, e5] at h3
  rw [← hlp] at h0 h1 h2 h3
  exact ⟨h0, h1, h2, h3, hrest⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2.2) (Cert.ReferenceIdeal.RunValue.run m ρ),
  trivial,
  algebraic⟩

end Cert.Proof

end
